-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x384 : Shape := ⟨3, ![128, 256, 384]⟩
abbrev S128x256 : Shape := ⟨2, ![128, 256]⟩
abbrev S_ : Shape := ⟨0, ![]⟩

class Facts : Prop where
  bcast_S_S128x256x384 : S_.BroadcastsInDim S128x256x384 (![] : Fin 0 → Fin S128x256x384.rank)
  reducesTo_S128x256x384_S_d0_1_2 : S128x256x384.ReducesTo [0, 1, 2] S_
  h_S_ : 0 < S_.numel

variable [Facts]

def fn {F : FTy → Type} [FloatOps F] (main_arg0 : FVec F S128x256x384 .f32) (main_arg1 : FVec F S128x256x384 .f32) (main_arg2 : IVec S128x256 32) (main_arg3 : IVec S128x256 32) : IVec S_ 1 :=
  let main_v0 : FVec F S128x256x384 .f32 := Host.absf main_arg0
  let main_cst : FVec F S_ .f32 := constant S_ .f32 0x7F800000#32
  let main_v1 : FVec F S128x256x384 .f32 := broadcastInDim S128x256x384 ![] bcast_S_S128x256x384 main_cst
  let main_v2 : IVec S128x256x384 1 := cmpf .olt main_v0 main_v1
  let main_c : IVec S_ 1 := constantI S_ 1 1#1
  let main_v3 : IVec S_ 1 := (fun x v => Host.reduce IntOp.andi x v reducesTo_S128x256x384_S_d0_1_2 h_S_) main_v2 main_c
  let main_v4 : FVec F S128x256x384 .f32 := Host.absf main_arg1
  let main_cst_0 : FVec F S_ .f32 := constant S_ .f32 0x7F800000#32
  let main_v5 : FVec F S128x256x384 .f32 := broadcastInDim S128x256x384 ![] bcast_S_S128x256x384 main_cst_0
  let main_v6 : IVec S128x256x384 1 := cmpf .olt main_v4 main_v5
  let main_c_1 : IVec S_ 1 := constantI S_ 1 1#1
  let main_v7 : IVec S_ 1 := (fun x v => Host.reduce IntOp.andi x v reducesTo_S128x256x384_S_d0_1_2 h_S_) main_v6 main_c_1
  let main_v8 : IVec S_ 1 := andi main_v3 main_v7
  main_v8
-- ==== Kernel.lean ====
abbrev S128x256x384 : Shape := ⟨3, ![128, 256, 384]⟩
abbrev S128x256 : Shape := ⟨2, ![128, 256]⟩
abbrev S128x768 : Shape := ⟨2, ![128, 768]⟩
abbrev S8x256x384 : Shape := ⟨3, ![8, 256, 384]⟩
abbrev S8x256 : Shape := ⟨2, ![8, 256]⟩
abbrev S8x768 : Shape := ⟨2, ![8, 768]⟩
abbrev S8x256x256 : Shape := ⟨3, ![8, 256, 256]⟩
abbrev S8x256x1 : Shape := ⟨3, ![8, 256, 1]⟩
abbrev S8x256x768 : Shape := ⟨3, ![8, 256, 768]⟩
abbrev S8x1 : Shape := ⟨2, ![8, 1]⟩
abbrev S8 : Shape := ⟨1, ![8]⟩

abbrev nBuf : Space → Nat
  | .hbm => 6
  | .vmem => 12
  | .smem => 0
  | _ => 0

abbrev bufTy : (tb : Table) → Fin (tcTables nBuf tb) → BufTy
  | .hbm, ⟨0, _⟩ => ⟨S128x256x384, .f32⟩
  | .hbm, ⟨1, _⟩ => ⟨S128x256x384, .f32⟩
  | .hbm, ⟨2, _⟩ => ⟨S128x256, .i32⟩
  | .hbm, ⟨3, _⟩ => ⟨S128x256, .i32⟩
  | .hbm, ⟨4, _⟩ => ⟨S128x768, .f32⟩
  | .hbm, ⟨5, _⟩ => ⟨S128x768, .f32⟩
  | .local _ .vmem, ⟨0, _⟩ => ⟨S8x256x384, .f32⟩
  | .local _ .vmem, ⟨1, _⟩ => ⟨S8x256x384, .f32⟩
  | .local _ .vmem, ⟨2, _⟩ => ⟨S8x256x384, .f32⟩
  | .local _ .vmem, ⟨3, _⟩ => ⟨S8x256x384, .f32⟩
  | .local _ .vmem, ⟨4, _⟩ => ⟨S8x256, .i32⟩
  | .local _ .vmem, ⟨5, _⟩ => ⟨S8x256, .i32⟩
  | .local _ .vmem, ⟨6, _⟩ => ⟨S8x256, .i32⟩
  | .local _ .vmem, ⟨7, _⟩ => ⟨S8x256, .i32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S8x768, .f32⟩
  | _, _ => ⟨S128x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x256x384_S8x256x384_0_0_0 : ∀ a, (![0, 0, 0] : Fin 3 → Nat) a + S8x256x384.size a ≤ S8x256x384.size a
  h_S8x256x384 : 0 < S8x256x384.numel
  inb_S8x256_S8x256_0_0 : ∀ a, (![0, 0] : Fin 2 → Nat) a + S8x256.size a ≤ S8x256.size a
  h_S8x256 : 0 < S8x256.numel
  bitsLt_bf16_f32 : FTy.bits .bf16 < FTy.bits .f32
  reduces_S8x256x256_S8x256 : S8x256x256.Reduces [2] S8x256
  shapeCasts_S8x256_S8x256x1 : S8x256.ShapeCasts S8x256x1
  broadcasts_S8x256x1_S8x256x256 : S8x256x1.Broadcasts S8x256x256
  transposes_S8x256x256_p0_2_1_S8x256x256 : S8x256x256.Transposes [0, 2, 1] S8x256x256
  concatenates_S8x256x384_S8x256x384_S8x256x768_d2 : Shape.Concatenates [S8x256x384, S8x256x384] S8x256x768 2
  reduces_S8x256x768_S8x256 : S8x256x768.Reduces [2] S8x256
  broadcasts_S8x256x1_S8x256x768 : S8x256x1.Broadcasts S8x256x768
  reduces_S8x256x768_S8x768 : S8x256x768.Reduces [1] S8x768
  reduces_S8x256x1_S8x1 : S8x256x1.Reduces [1] S8x1
  broadcasts_S8x1_S8x768 : S8x1.Broadcasts S8x768
  reduces_S8x768_S8 : S8x768.Reduces [1] S8
  shapeCasts_S8_S8x1 : S8.ShapeCasts S8x1
  inb_S8x768_S8x768_0_0 : ∀ a, (![0, 0] : Fin 2 → Nat) a + S8x768.size a ≤ S8x768.size a
  h_S8x768 : 0 < S8x768.numel
  dot_S8x256x384_S8x256x384_S8x256x256_2_2_1_1_0_0_wf : DotDims.WF S8x256x384 S8x256x384 S8x256x256 [2] [2] [1] [1] [0] [0]
  dot_S8x256x256_S8x256x384_S8x256x384_2_1_1_2_0_0_wf : DotDims.WF S8x256x256 S8x256x384 S8x256x384 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x384.size a ≤ S128x256x384.size a
  hwx0_0 : ∀ i : grid0.Coords, EltTy.bits .f32 = 32 ∨ (Rect.block (s := S128x256x384) S8x256x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x384.size a ≤ S128x256x384.size a
  hwx0_1 : ∀ i : grid0.Coords, EltTy.bits .f32 = 32 ∨ (Rect.block (s := S128x256x384) S8x256x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S128x256.size a
  hwx0_2 : ∀ i : grid0.Coords, EltTy.bits .i32 = 32 ∨ (Rect.block (s := S128x256) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S128x256.size a
  hwx0_3 : ∀ i : grid0.Coords, EltTy.bits .i32 = 32 ∨ (Rect.block (s := S128x256) S8x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x768.size a ≤ S128x768.size a
  hwx0_4 : ∀ i : grid0.Coords, EltTy.bits .f32 = 32 ∨ (Rect.block (s := S128x768) S8x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x768.size a ≤ S128x768.size a
  hwx0_5 : ∀ i : grid0.Coords, EltTy.bits .f32 = 32 ∨ (Rect.block (s := S128x768) S8x768.size (cc0_transform_5 i) (hinb0_5 i)).WholeWords (EltTy.packing .f32)

variable [Facts₀]

def dot_S8x256x384_S8x256x384_S8x256x256_2_2_1_1_0_0 : DotDims S8x256x384 S8x256x384 S8x256x256 where
  lhsContracting := [2]
  rhsContracting := [2]
  lhsNonContracting := [1]
  rhsNonContracting := [1]
  lhsBatch := [0]
  rhsBatch := [0]
  wf := dot_S8x256x384_S8x256x384_S8x256x256_2_2_1_1_0_0_wf
def dot_S8x256x256_S8x256x384_S8x256x384_2_1_1_2_0_0 : DotDims S8x256x256 S8x256x384 S8x256x384 where
  lhsContracting := [2]
  rhsContracting := [1]
  lhsNonContracting := [1]
  rhsNonContracting := [2]
  lhsBatch := [0]
  rhsBatch := [0]
  wf := dot_S8x256x256_S8x256x384_S8x256x384_2_1_1_2_0_0_wf

abbrev win0_0 : Pipeline.Window sig grid0 :=
  Pipeline.Window.ofSpec (Memref.whole main_arg0) S8x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x384 : Shape := ⟨3, ![128, 256, 384]⟩
abbrev S128x256 : Shape := ⟨2, ![128, 256]⟩
abbrev S128x256x256 : Shape := ⟨3, ![128, 256, 256]⟩
abbrev S_ : Shape := ⟨0, ![]⟩
abbrev S128x256x1 : Shape := ⟨3, ![128, 256, 1]⟩
abbrev S128x256x768 : Shape := ⟨3, ![128, 256, 768]⟩
abbrev S128x768 : Shape := ⟨2, ![128, 768]⟩
abbrev S128x1 : Shape := ⟨2, ![128, 1]⟩
abbrev S128 : Shape := ⟨1, ![128]⟩

abbrev nBuf : Space → Nat
  | .hbm => 104
  | .vmem => 0
  | .smem => 0
  | _ => 0

abbrev bufTy : (tb : Table) → Fin (tcTables nBuf tb) → BufTy
  | .hbm, ⟨0, _⟩ => ⟨S128x256x384, .f32⟩
  | .hbm, ⟨1, _⟩ => ⟨S128x256x384, .f32⟩
  | .hbm, ⟨2, _⟩ => ⟨S128x256, .i32⟩
  | .hbm, ⟨3, _⟩ => ⟨S128x256, .i32⟩
  | .hbm, ⟨4, _⟩ => ⟨S128x256x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256x1, .f32⟩
  | .hbm, ⟨11, _⟩ => ⟨S128x256x256, .f32⟩
  | .hbm, ⟨12, _⟩ => ⟨S128x256x256, .f32⟩
  | .hbm, ⟨13, _⟩ => ⟨S128x256x256, .f32⟩
  | .hbm, ⟨14, _⟩ => ⟨S_, .f32⟩
  | .hbm, ⟨15, _⟩ => ⟨S128x256, .f32⟩
  | .hbm, ⟨16, _⟩ => ⟨S128x256x1, .f32⟩
  | .hbm, ⟨17, _⟩ => ⟨S128x256x256, .f32⟩
  | .hbm, ⟨18, _⟩ => ⟨S128x256x256, .f32⟩
  | .hbm, ⟨19, _⟩ => ⟨S128x256x256, .f32⟩
  | .hbm, ⟨20, _⟩ => ⟨S_, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256x1, .f32⟩
  | .hbm, ⟨26, _⟩ => ⟨S128x256x256, .f32⟩
  | .hbm, ⟨27, _⟩ => ⟨S128x256x256, .f32⟩
  | .hbm, ⟨28, _⟩ => ⟨S128x256x256, .f32⟩
  | .hbm, ⟨29, _⟩ => ⟨S_, .f32⟩
  | .hbm, ⟨30, _⟩ => ⟨S128x256, .f32⟩
  | .hbm, ⟨31, _⟩ => ⟨S128x256x1, .f32⟩
  | .hbm, ⟨32, _⟩ => ⟨S128x256x256, .f32⟩
  | .hbm, ⟨33, _⟩ => ⟨S128x256x256, .f32⟩
  | .hbm, ⟨34, _⟩ => ⟨S128x256x384, .f32⟩
  | .hbm, ⟨35, _⟩ => ⟨S128x256x384, .f32⟩
  | .hbm, ⟨36, _⟩ => ⟨S128x256x768, .f32⟩
  | .hbm, ⟨37, _⟩ => ⟨S128x256x768, .f32⟩
  | .hbm, ⟨38, _⟩ => ⟨S_, .f32⟩
  | .hbm, ⟨39, _⟩ => ⟨S128x256, .f32⟩
  | .hbm, ⟨40, _⟩ => ⟨S128x256x1, .f32⟩
  | .hbm, ⟨41, _⟩ => ⟨S128x256x1, .f32⟩
  | .hbm, ⟨42, _⟩ => ⟨S_, .f32⟩
  | .hbm, ⟨43, _⟩ => ⟨S128x256x1, .f32⟩
  | .hbm, ⟨44, _⟩ => ⟨S128x256x1, .f32⟩
  | .hbm, ⟨45, _⟩ => ⟨S128x256x768, .f32⟩
  | .hbm, ⟨46, _⟩ => ⟨S128x256x768, .f32⟩
  | .hbm, ⟨47, _⟩ => ⟨S128x256x768, .f32⟩
  | .hbm, ⟨48, _⟩ => ⟨S128x256x768, .f32⟩
  | .hbm, ⟨49, _⟩ => ⟨S_, .f32⟩
  | .hbm, ⟨50, _⟩ => ⟨S128x256, .f32⟩
  | .hbm, ⟨51, _⟩ => ⟨S128x256x1, .f32⟩
  | .hbm, ⟨52, _⟩ => ⟨S128x256x1, .f32⟩
  | .hbm, ⟨53, _⟩ => ⟨S_, .f32⟩
  | .hbm, ⟨54, _⟩ => ⟨S128x256x1, .f32⟩
  | .hbm, ⟨55, _⟩ => ⟨S128x256x1, .f32⟩
  | .hbm, ⟨56, _⟩ => ⟨S128x256x768, .f32⟩
  | .hbm, ⟨57, _⟩ => ⟨S128x256x768, .f32⟩
  | .hbm, ⟨58, _⟩ => ⟨S128x256, .f32⟩
  | .hbm, ⟨59, _⟩ => ⟨S128x256x1, .f32⟩
  | .hbm, ⟨60, _⟩ => ⟨S128x256x768, .f32⟩
  | .hbm, ⟨61, _⟩ => ⟨S128x256x768, .f32⟩
  | .hbm, ⟨62, _⟩ => ⟨S_, .f32⟩
  | .hbm, ⟨63, _⟩ => ⟨S128x768, .f32⟩
  | .hbm, ⟨64, _⟩ => ⟨S_, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x768, .f32⟩
  | .hbm, ⟨70, _⟩ => ⟨S128x768, .f32⟩
  | .hbm, ⟨71, _⟩ => ⟨S128x768, .f32⟩
  | .hbm, ⟨72, _⟩ => ⟨S_, .f32⟩
  | .hbm, ⟨73, _⟩ => ⟨S128, .f32⟩
  | .hbm, ⟨74, _⟩ => ⟨S128x1, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x768, .f32⟩
  | .hbm, ⟨80, _⟩ => ⟨S128x768, .f32⟩
  | .hbm, ⟨81, _⟩ => ⟨S128x256, .f32⟩
  | .hbm, ⟨82, _⟩ => ⟨S128x256x1, .f32⟩
  | .hbm, ⟨83, _⟩ => ⟨S128x256x768, .f32⟩
  | .hbm, ⟨84, _⟩ => ⟨S128x256x768, .f32⟩
  | .hbm, ⟨85, _⟩ => ⟨S_, .f32⟩
  | .hbm, ⟨86, _⟩ => ⟨S128x768, .f32⟩
  | .hbm, ⟨87, _⟩ => ⟨S_, .f32⟩
  | .hbm, ⟨88, _⟩ => ⟨S128x1, .f32⟩
  | .hbm, ⟨89, _⟩ => ⟨S_, .f32⟩
  | .hbm, ⟨90, _⟩ => ⟨S128x1, .f32⟩
  | .hbm, ⟨91, _⟩ => ⟨S128x1, .f32⟩
  | .hbm, ⟨92, _⟩ => ⟨S128x768, .f32⟩
  | .hbm, ⟨93, _⟩ => ⟨S128x768, .f32⟩
  | .hbm, ⟨94, _⟩ => ⟨S128x768, .f32⟩
  | .hbm, ⟨95, _⟩ => ⟨S_, .f32⟩
  | .hbm, ⟨96, _⟩ => ⟨S128, .f32⟩
  | .hbm, ⟨97, _⟩ => ⟨S128x1, .f32⟩
  | .hbm, ⟨98, _⟩ => ⟨S128x1, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S128x768, .f32⟩
  | .hbm, ⟨103, _⟩ => ⟨S128x768, .f32⟩
  | _, _ => ⟨S128x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  reducesTo_S128x256x256_S128x256_d2 : S128x256x256.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x256_0_1_2 : S128x256x1.BroadcastsInDim S128x256x256 (![0, 1, 2] : Fin 3 → Fin S128x256x256.rank)
  transposes_S128x256x256_S128x256x256_0_2_1 : S128x256x256.Transposes [0, 2, 1] S128x256x256
  concatenates_S128x256x384_S128x256x384_S128x256x768_d2 : Shape.Concatenates [S128x256x384, S128x256x384] S128x256x768 2
  reducesTo_S128x256x768_S128x256_d2 : S128x256x768.ReducesTo [2] S128x256
  bcast_S_S128x256x1 : S_.BroadcastsInDim S128x256x1 (![] : Fin 0 → Fin S128x256x1.rank)
  bcast_S128x256x1_S128x256x768_0_1_2 : S128x256x1.BroadcastsInDim S128x256x768 (![0, 1, 2] : Fin 3 → Fin S128x256x768.rank)
  reducesTo_S128x256x768_S128x768_d1 : S128x256x768.ReducesTo [1] S128x768
  reducesTo_S128x256x1_S128x1_d1 : S128x256x1.ReducesTo [1] S128x1
  bcast_S_S128x1 : S_.BroadcastsInDim S128x1 (![] : Fin 0 → Fin S128x1.rank)
  bcast_S128x1_S128x768_0_1 : S128x1.BroadcastsInDim S128x768 (![0, 1] : Fin 2 → Fin S128x768.rank)
  reducesTo_S128x768_S128_d1 : S128x768.ReducesTo [1] S128
  bcast_S128_S128x1_0 : S128.BroadcastsInDim S128x1 (![0] : Fin 1 → Fin S128x1.rank)
  dot_S128x256x384_S128x256x384_S128x256x256_2_2_1_1_0_0_wf : DotDims.WF S128x256x384 S128x256x384 S128x256x256 [2] [2] [1] [1] [0] [0]
  dot_S128x256x256_S128x256x384_S128x256x384_2_1_1_2_0_0_wf : DotDims.WF S128x256x256 S128x256x384 S128x256x384 [2] [1] [1] [2] [0] [0]

variable [Facts₀]

def dot_S128x256x384_S128x256x384_S128x256x256_2_2_1_1_0_0 : DotDims S128x256x384 S128x256x384 S128x256x256 where
  lhsContracting := [2]
  rhsContracting := [2]
  lhsNonContracting := [1]
  rhsNonContracting := [1]
  lhsBatch := [0]
  rhsBatch := [0]
  wf := dot_S128x256x384_S128x256x384_S128x256x256_2_2_1_1_0_0_wf
def dot_S128x256x256_S128x256x384_S128x256x384_2_1_1_2_0_0 : DotDims S128x256x256 S128x256x384 S128x256x384 where
  lhsContracting := [2]
  rhsContracting := [1]
  lhsNonContracting := [1]
  rhsNonContracting := [2]
  lhsBatch := [0]
  rhsBatch := [0]
  wf := dot_S128x256x256_S128x256x384_S128x256x384_2_1_1_2_0_0_wf

class Facts : Prop extends Facts₀ where

variable [Facts]
-- ==== Proof.KOps.lean ====
/-
  The kernel body's arithmetic, cut into the stretches the mathematics names: the softmax along the last axis of a
  block of scores, the transposition of a block of scores, the attended features (a matrix product with the other
  sequence's block), the two feature blocks side by side, the rows scaled to unit length, the masked mean over the
  tokens, the final scaling to unit length. Each stretch is the body's own operations over its operands as variables,
  at any float family; the last four theorems say that the body's stored values are these stretches composed, which
  holds by unfolding.
-/
import proofs.«171500_j69200513073212_1_alg».proof.Proof.Gen.KernelIdeal.Skeleton

noncomputable section

namespace Cert.KernelIdeal.Body

open Cert.KernelIdeal Cert.KernelIdeal.Gen Idealize.ShloMosaic

variable {F : FTy → Type} [FloatOps F]

/-- A per-row value spread along the last axis of a block of scores. -/
def spread (v : FVec F S8x256 .f32) : FVec F S8x256x256 .f32 :=
  broadcastTo S8x256x256 (shapeCast S8x256x1 v shapeCasts_S8x256_S8x256x1) broadcasts_S8x256x1_S8x256x256

/-- Each row's maximum, reduced from `-∞` and compared with `-∞` once more. -/
def rowMaxes (X : FVec F S8x256x256 .f32) : FVec F S8x256 .f32 :=
  maximumf (broadcast S8x256 (Scalar.ofBits .f32 0xFF800000#32))
    (multiReduction .maximumf [2] S8x256 X 0xFF800000#32 reduces_S8x256x256_S8x256 (.inl rfl) rfl)

/-- The exponentials of the scores less their row's maximum. -/
def shifted (X : FVec F S8x256x256 .f32) : FVec F S8x256x256 .f32 :=
  exp (subf X (spread (rowMaxes X)))

/-- The softmax along the last axis. -/
def softmaxLast (X : FVec F S8x256x256 .f32) : FVec F S8x256x256 .f32 :=
  divf (shifted X)
    (spread (multiReduction .add [2] S8x256 (shifted X) 0x00000000#32 reduces_S8x256x256_S8x256 (.inl rfl) rfl))

/-- The block of scores with its two token axes exchanged. -/
def swapTokens (X : FVec F S8x256x256 .f32) : FVec F S8x256x256 .f32 :=
  transpose S8x256x256 [0, 2, 1] X transposes_S8x256x256_p0_2_1_S8x256x256

/-- The attended features: the weights times the other sequence's block, into a zero accumulator. -/
def attended (W : FVec F S8x256x256 .f32) (Y : Vec F S8x256x384 .f32) : FVec F S8x256x384 .f32 :=
  matmul dot_S8x256x256_S8x256x384_S8x256x384_2_1_1_2_0_0 none (truncf .bf16 W bitsLt_bf16_f32)
    (truncf .bf16 Y bitsLt_bf16_f32) (constant S8x256x384 .f32 0x00000000#32)

/-- A sequence's own features followed by its attended ones, along the feature axis. -/
def sideBySide (X : Vec F S8x256x384 .f32) (Z : FVec F S8x256x384 .f32) : FVec F S8x256x768 .f32 :=
  concatenate S8x256x768 2 [⟨S8x256x384, X⟩, ⟨S8x256x384, Z⟩] concatenates_S8x256x384_S8x256x384_S8x256x768_d2

/-- Every token's 768 features scaled to unit Euclidean length, the length floored. -/
def unitRows (C : FVec F S8x256x768 .f32) : FVec F S8x256x768 .f32 :=
  divf C (broadcastTo S8x256x768
    (maximumf (sqrt (shapeCast S8x256x1
        (multiReduction .add [2] S8x256 (mulf C C) 0x00000000#32 reduces_S8x256x768_S8x256 (.inl rfl) rfl)
        shapeCasts_S8x256_S8x256x1))
      (broadcast S8x256x1 (Scalar.ofBits .f32 0x2B8CBCCC#32)))
    broadcasts_S8x256x1_S8x256x768)

/-- The masked mean over the tokens, the count floored. -/
def maskedMean (N : FVec F S8x256x768 .f32) (mk : FVec F S8x256 .f32) : FVec F S8x768 .f32 :=
  divf
    (multiReduction .add [1] S8x768
      (mulf N (broadcastTo S8x256x768 (shapeCast S8x256x1 mk shapeCasts_S8x256_S8x256x1) broadcasts_S8x256x1_S8x256x768))
      0x00000000#32 reduces_S8x256x768_S8x768 (.inl rfl) rfl)
    (broadcastTo S8x768
      (maximumf
        (multiReduction .add [1] S8x1 (shapeCast S8x256x1 mk shapeCasts_S8x256_S8x256x1) 0x00000000#32
          reduces_S8x256x1_S8x1 (.inl rfl) rfl)
        (broadcast S8x1 (Scalar.ofBits .f32 0x3089705F#32)))
      broadcasts_S8x1_S8x768)

/-- A pooled vector per batch element scaled to unit Euclidean length, the length floored. -/
def unitVecs (R : FVec F S8x768 .f32) : FVec F S8x768 .f32 :=
  divf R (broadcastTo S8x768
    (maximumf (sqrt (shapeCast S8x1
        (multiReduction .add [1] S8 (mulf R R) 0x00000000#32 reduces_S8x768_S8 (.inl rfl) rfl)
        shapeCasts_S8_S8x1))
      (broadcast S8x1 (Scalar.ofBits .f32 0x2B8CBCCC#32)))
    broadcasts_S8x1_S8x768)

/-- The first sequence's 768-feature block: its own block beside the softmax of the scores times the second's. -/
theorem firstSide_eq (v0 v1 : Vec F S8x256x384 .f32) :
    k0_pay8 v0 v1 = sideBySide v0 (attended (softmaxLast (k0_pay6 v0 v1)) v1) := rfl

/-- The second sequence's attended features: the softmax of the transposed scores times the first's block. -/
theorem secondAttended_eq (v0 v1 : Vec F S8x256x384 .f32) :
    k0_pay7 v0 v1 = attended (softmaxLast (swapTokens (k0_pay6 v0 v1))) v0 := rfl

/-- What the body stores for the first sequence. -/
theorem firstStored_eq (P0 P1 : Vec F S8x256x384 .f32) (P2 : Vec F S8x256 .i32) :
    k0_pay10 (k0_pay2 P2) (k0_pay8 P0 P1) (k0_pay9 P0 P1)
      = unitVecs (maskedMean (unitRows (k0_pay8 P0 P1)) (sitofp (F := F) .f32 P2)) := rfl

/-- What the body stores for the second sequence. -/
theorem secondStored_eq (P0 P1 : Vec F S8x256x384 .f32) (P3 : Vec F S8x256 .i32) :
    k0_pay1 (k0_pay11 P1 (k0_pay3 P3) (k0_pay7 P0 P1)) (k0_pay12 P1 (k0_pay3 P3) (k0_pay7 P0 P1))
      = unitVecs (maskedMean (unitRows (sideBySide P1 (k0_pay7 P0 P1))) (sitofp (F := F) .f32 P3)) := rfl

end Cert.KernelIdeal.Body

end
-- ==== Proof.Spec.lean ====
/-
  The mathematics of one batch element, on the extended reals: what BOTH programs compute for it.

  Two token sequences, each of 256 tokens with 384 features, attend to each other. With `s i j` the score of
  token `i` of one sequence against token `j` of the other, a token's weights are the softmax of its row of scores
  (`softRow`: the exponential of the score less the row's maximum, over the sum of those exponentials — the maximum
  taken from `-∞`, as both programs take it); its attended features are the weighted sum of the other
  sequence's tokens (`attend`); its own and its attended features side by side (`cat`, 768 features) are scaled to
  unit Euclidean length, the length floored at a small constant (`unit`); the tokens a 0/1 mask keeps are averaged,
  the count floored at another small constant (`pool`); and the average is scaled to unit length again.
  `pooled` is that whole chain for one sequence; the other sequence's is the same chain with the two sequences
  exchanged and the score matrix transposed.

  Every operation here is the exact one on the extended reals (`Ideal.div`, `Ideal.exp`, `Ideal.sqrt`), and
  the three constants are kept as the binary32 patterns both programs print; nothing below evaluates them.
-/
import Idealize.ShloMosaic.PureOps.Ideal
import Idealize.ShloMosaic.Lib.ValueIdx

noncomputable section

namespace Cert.CrossAttn

open Idealize.ShloMosaic
open scoped BigOperators

/-- The pattern of `-∞` both programs start a row's maximum from. -/
abbrev negInf : EReal := Ideal.ofBits .f32 0xFF800000#32
/-- The floor of a Euclidean length (the pattern both programs print for `1e-12`). -/
abbrev lenFloor : EReal := Ideal.ofBits .f32 0x2B8CBCCC#32
/-- The floor of a token count (the pattern both programs print for `1e-9`). -/
abbrev cntFloor : EReal := Ideal.ofBits .f32 0x3089705F#32

/-- A row's maximum, folded from `-∞` and then once more compared with `-∞` (both programs do both). -/
def rowMax (s : Fin 256 → EReal) : EReal := max negInf ((Finset.univ : Finset (Fin 256)).fold max negInf s)

/-- The softmax of a row of scores. -/
def softRow (s : Fin 256 → EReal) (j : Fin 256) : EReal :=
  Ideal.div (Ideal.exp (s j - rowMax s)) (∑ k : Fin 256, Ideal.exp (s k - rowMax s))

/-- A token's attended features: its weights against the other sequence's tokens. -/
def attend (w : Fin 256 → EReal) (y : Fin 256 → Fin 384 → EReal) (d : Fin 384) : EReal :=
  ∑ k : Fin 256, w k * y k d

/-- A token's own features followed by its attended ones. -/
def cat (x z : Fin 384 → EReal) (c : Fin 768) : EReal :=
  if h : c.val < 384 then x ⟨c.val, h⟩ else z ⟨c.val - 384, by have := c.isLt; omega⟩

/-- A 768-vector scaled to unit Euclidean length, the length floored. -/
def unit (v : Fin 768 → EReal) (c : Fin 768) : EReal :=
  Ideal.div (v c) (max (Ideal.sqrt (∑ k : Fin 768, v k * v k)) lenFloor)

/-- The masked mean of the tokens' vectors, the count floored. -/
def pool (n : Fin 256 → Fin 768 → EReal) (m : Fin 256 → EReal) (c : Fin 768) : EReal :=
  Ideal.div (∑ i : Fin 256, n i c * m i) (max (∑ i : Fin 256, m i) cntFloor)

/-- One sequence's pooled vector: `s` its tokens' scores against the other sequence's, `x` its own features, `y` the
    other sequence's, `m` its mask as numbers. -/
def pooled (s : Fin 256 → Fin 256 → EReal) (x y : Fin 256 → Fin 384 → EReal) (m : Fin 256 → EReal) : Fin 768 → EReal :=
  unit (pool (fun i => unit (cat (x i) (attend (softRow (s i)) y))) m)

/-- The score of a token of the first sequence against a token of the second: the inner product of their features. -/
def score (q a : Fin 256 → Fin 384 → EReal) (i j : Fin 256) : EReal := ∑ d : Fin 384, q i d * a j d

end Cert.CrossAttn

end
-- ==== Proof.KScores.lean ====
/-
  The kernel's two matrix products read at an entry, on the extended reals.

  Both products accumulate into the zero block, so an entry is the bare sum, over the one contracted axis, of the
  products of the two operands' entries; the narrowing of the operands to bf16 is the identity on the extended reals.
  For the scores the contracted axis is the feature axis of both operands (384 features); for the attended features it
  is the weights' last axis against the other block's token axis (256 tokens). In both the leading axis is the batch
  axis, shared by the operands and the result.
-/
import proofs.«171500_j69200513073212_1_alg».proof.Proof.KOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.CrossAttn
open scoped BigOperators

/-! ## The scores' product: where its operands are read

At the output entry (p, i, j) and the contracted coordinate q the left operand is read at (p, i, q) and the right
at (p, j, q). One statement per axis of each operand. -/

theorem lhs_scores_0 (i : S8x256x256.Idx) (q : dot_S8x256x384_S8x256x384_S8x256x256_2_2_1_1_0_0.contr.Idx) :
    (dot_S8x256x384_S8x256x384_S8x256x256_2_2_1_1_0_0.lhsIdx i q 0).val = (i 0).val := by
  unfold DotDims.lhsIdx
  rw [dif_pos (show (0 : Fin S8x256x384.rank) ∈ dot_S8x256x384_S8x256x384_S8x256x256_2_2_1_1_0_0.lhsBatch by decide)]
  rfl
theorem lhs_scores_1 (i : S8x256x256.Idx) (q : dot_S8x256x384_S8x256x384_S8x256x256_2_2_1_1_0_0.contr.Idx) :
    (dot_S8x256x384_S8x256x384_S8x256x256_2_2_1_1_0_0.lhsIdx i q 1).val = (i 1).val := by
  unfold DotDims.lhsIdx
  rw [dif_neg (show ¬(1 : Fin S8x256x384.rank) ∈ dot_S8x256x384_S8x256x384_S8x256x256_2_2_1_1_0_0.lhsBatch by decide), dif_pos (show (1 : Fin S8x256x384.rank) ∈ dot_S8x256x384_S8x256x384_S8x256x256_2_2_1_1_0_0.lhsNonContracting by decide)]
  rfl
theorem lhs_scores_2 (i : S8x256x256.Idx) (q : dot_S8x256x384_S8x256x384_S8x256x256_2_2_1_1_0_0.contr.Idx) :
    (dot_S8x256x384_S8x256x384_S8x256x256_2_2_1_1_0_0.lhsIdx i q 2).val = (q ⟨0, by decide⟩).val :=
  dot_S8x256x384_S8x256x384_S8x256x256_2_2_1_1_0_0.lhsIdx_val_of_single rfl i q
theorem rhs_scores_0 (i : S8x256x256.Idx) (q : dot_S8x256x384_S8x256x384_S8x256x256_2_2_1_1_0_0.contr.Idx) :
    (dot_S8x256x384_S8x256x384_S8x256x256_2_2_1_1_0_0.rhsIdx i q 0).val = (i 0).val := by
  unfold DotDims.rhsIdx
  rw [dif_pos (show (0 : Fin S8x256x384.rank) ∈ dot_S8x256x384_S8x256x384_S8x256x256_2_2_1_1_0_0.rhsBatch by decide)]
  rfl
theorem rhs_scores_1 (i : S8x256x256.Idx) (q : dot_S8x256x384_S8x256x384_S8x256x256_2_2_1_1_0_0.contr.Idx) :
    (dot_S8x256x384_S8x256x384_S8x256x256_2_2_1_1_0_0.rhsIdx i q 1).val = (i 2).val := by
  unfold DotDims.rhsIdx
  rw [dif_neg (show ¬(1 : Fin S8x256x384.rank) ∈ dot_S8x256x384_S8x256x384_S8x256x256_2_2_1_1_0_0.rhsBatch by decide), dif_pos (show (1 : Fin S8x256x384.rank) ∈ dot_S8x256x384_S8x256x384_S8x256x256_2_2_1_1_0_0.rhsNonContracting by decide)]
  rfl
theorem rhs_scores_2 (i : S8x256x256.Idx) (q : dot_S8x256x384_S8x256x384_S8x256x256_2_2_1_1_0_0.contr.Idx) :
    (dot_S8x256x384_S8x256x384_S8x256x256_2_2_1_1_0_0.rhsIdx i q 2).val = (q ⟨0, by decide⟩).val :=
  dot_S8x256x384_S8x256x384_S8x256x256_2_2_1_1_0_0.rhsIdx_val_of_single rfl i q

/-- An entry of the block of scores is the inner product of the two tokens' features. -/
theorem scores_apply (P0 P1 : Vec Ideal S8x256x384 .f32) (p : Fin 8) (i j : Fin 256) :
    k0_pay6 (F := Ideal) P0 P1 (ix3 p i j) = score (fun i d => P0 (ix3 p i d)) (fun j d => P1 (ix3 p j d)) i j := by
  unfold k0_pay6 k0_pay4 k0_pay5 score
  simp only [matmul]
  rw [Ideal.matmul_constant_zero_apply, ← Equiv.sum_comp (ValueIdx.contrEquiv1 dot_S8x256x384_S8x256x384_S8x256x256_2_2_1_1_0_0 384 rfl rfl).symm]
  refine Finset.sum_congr rfl fun k _ => ?_
  have hk := ValueIdx.contrEquiv1_symm_val dot_S8x256x384_S8x256x384_S8x256x256_2_2_1_1_0_0 384 rfl rfl k
  have el : dot_S8x256x384_S8x256x384_S8x256x256_2_2_1_1_0_0.lhsIdx (ix3 p i j) ((ValueIdx.contrEquiv1 dot_S8x256x384_S8x256x384_S8x256x256_2_2_1_1_0_0 384 rfl rfl).symm k) = ix3 p i k := funext fun a => Fin.ext (by
    match a with
    | ⟨0, _⟩ => exact lhs_scores_0 _ _
    | ⟨1, _⟩ => exact lhs_scores_1 _ _
    | ⟨2, _⟩ => exact (lhs_scores_2 _ _).trans hk)
  have er : dot_S8x256x384_S8x256x384_S8x256x256_2_2_1_1_0_0.rhsIdx (ix3 p i j) ((ValueIdx.contrEquiv1 dot_S8x256x384_S8x256x384_S8x256x256_2_2_1_1_0_0 384 rfl rfl).symm k) = ix3 p j k := funext fun a => Fin.ext (by
    match a with
    | ⟨0, _⟩ => exact rhs_scores_0 _ _
    | ⟨1, _⟩ => exact rhs_scores_1 _ _
    | ⟨2, _⟩ => exact (rhs_scores_2 _ _).trans hk)
  rw [ValueIdx.truncf_apply, ValueIdx.truncf_apply, el, er]

/-! ## The attended features' product: where its operands are read

At the output entry (p, i, d) and the contracted coordinate q the weights are read at (p, i, q) and the other
sequence's block at (p, q, d). -/

theorem lhs_attended_0 (i : S8x256x384.Idx) (q : dot_S8x256x256_S8x256x384_S8x256x384_2_1_1_2_0_0.contr.Idx) :
    (dot_S8x256x256_S8x256x384_S8x256x384_2_1_1_2_0_0.lhsIdx i q 0).val = (i 0).val := by
  unfold DotDims.lhsIdx
  rw [dif_pos (show (0 : Fin S8x256x256.rank) ∈ dot_S8x256x256_S8x256x384_S8x256x384_2_1_1_2_0_0.lhsBatch by decide)]
  rfl
theorem lhs_attended_1 (i : S8x256x384.Idx) (q : dot_S8x256x256_S8x256x384_S8x256x384_2_1_1_2_0_0.contr.Idx) :
    (dot_S8x256x256_S8x256x384_S8x256x384_2_1_1_2_0_0.lhsIdx i q 1).val = (i 1).val := by
  unfold DotDims.lhsIdx
  rw [dif_neg (show ¬(1 : Fin S8x256x256.rank) ∈ dot_S8x256x256_S8x256x384_S8x256x384_2_1_1_2_0_0.lhsBatch by decide), dif_pos (show (1 : Fin S8x256x256.rank) ∈ dot_S8x256x256_S8x256x384_S8x256x384_2_1_1_2_0_0.lhsNonContracting by decide)]
  rfl
theorem lhs_attended_2 (i : S8x256x384.Idx) (q : dot_S8x256x256_S8x256x384_S8x256x384_2_1_1_2_0_0.contr.Idx) :
    (dot_S8x256x256_S8x256x384_S8x256x384_2_1_1_2_0_0.lhsIdx i q 2).val = (q ⟨0, by decide⟩).val :=
  dot_S8x256x256_S8x256x384_S8x256x384_2_1_1_2_0_0.lhsIdx_val_of_single rfl i q
theorem rhs_attended_0 (i : S8x256x384.Idx) (q : dot_S8x256x256_S8x256x384_S8x256x384_2_1_1_2_0_0.contr.Idx) :
    (dot_S8x256x256_S8x256x384_S8x256x384_2_1_1_2_0_0.rhsIdx i q 0).val = (i 0).val := by
  unfold DotDims.rhsIdx
  rw [dif_pos (show (0 : Fin S8x256x384.rank) ∈ dot_S8x256x256_S8x256x384_S8x256x384_2_1_1_2_0_0.rhsBatch by decide)]
  rfl
theorem rhs_attended_1 (i : S8x256x384.Idx) (q : dot_S8x256x256_S8x256x384_S8x256x384_2_1_1_2_0_0.contr.Idx) :
    (dot_S8x256x256_S8x256x384_S8x256x384_2_1_1_2_0_0.rhsIdx i q 1).val = (q ⟨0, by decide⟩).val :=
  dot_S8x256x256_S8x256x384_S8x256x384_2_1_1_2_0_0.rhsIdx_val_of_single rfl i q
theorem rhs_attended_2 (i : S8x256x384.Idx) (q : dot_S8x256x256_S8x256x384_S8x256x384_2_1_1_2_0_0.contr.Idx) :
    (dot_S8x256x256_S8x256x384_S8x256x384_2_1_1_2_0_0.rhsIdx i q 2).val = (i 2).val := by
  unfold DotDims.rhsIdx
  rw [dif_neg (show ¬(2 : Fin S8x256x384.rank) ∈ dot_S8x256x256_S8x256x384_S8x256x384_2_1_1_2_0_0.rhsBatch by decide), dif_pos (show (2 : Fin S8x256x384.rank) ∈ dot_S8x256x256_S8x256x384_S8x256x384_2_1_1_2_0_0.rhsNonContracting by decide)]
  rfl

/-- An entry of the attended features is the token's weights against the other sequence's tokens at that feature. -/
theorem attended_apply (W : FVec Ideal S8x256x256 .f32) (Y : Vec Ideal S8x256x384 .f32) (p : Fin 8) (i : Fin 256) (d : Fin 384) :
    attended (F := Ideal) W Y (ix3 p i d) = attend (fun k => W (ix3 p i k)) (fun k d => Y (ix3 p k d)) d := by
  unfold attended attend
  simp only [matmul]
  rw [Ideal.matmul_constant_zero_apply, ← Equiv.sum_comp (ValueIdx.contrEquiv1 dot_S8x256x256_S8x256x384_S8x256x384_2_1_1_2_0_0 256 rfl rfl).symm]
  refine Finset.sum_congr rfl fun k _ => ?_
  have hk := ValueIdx.contrEquiv1_symm_val dot_S8x256x256_S8x256x384_S8x256x384_2_1_1_2_0_0 256 rfl rfl k
  have el : dot_S8x256x256_S8x256x384_S8x256x384_2_1_1_2_0_0.lhsIdx (ix3 p i d) ((ValueIdx.contrEquiv1 dot_S8x256x256_S8x256x384_S8x256x384_2_1_1_2_0_0 256 rfl rfl).symm k) = ix3 p i k := funext fun a => Fin.ext (by
    match a with
    | ⟨0, _⟩ => exact lhs_attended_0 _ _
    | ⟨1, _⟩ => exact lhs_attended_1 _ _
    | ⟨2, _⟩ => exact (lhs_attended_2 _ _).trans hk)
  have er : dot_S8x256x256_S8x256x384_S8x256x384_2_1_1_2_0_0.rhsIdx (ix3 p i d) ((ValueIdx.contrEquiv1 dot_S8x256x256_S8x256x384_S8x256x384_2_1_1_2_0_0 256 rfl rfl).symm k) = ix3 p k d := funext fun a => Fin.ext (by
    match a with
    | ⟨0, _⟩ => exact rhs_attended_0 _ _
    | ⟨1, _⟩ => exact (rhs_attended_1 _ _).trans hk
    | ⟨2, _⟩ => exact rhs_attended_2 _ _)
  rw [ValueIdx.truncf_apply, ValueIdx.truncf_apply, el, er]

end Cert.KernelIdeal.Body

end
-- ==== Proof.KSoftmax.lean ====
/-
  The kernel's softmax along the last axis, and its exchange of the token axes, read at an entry.

  A per-row value spread along the last axis is, at (p, i, j), the row's value at (p, i): the cast to a trailing unit
  axis keeps the row-major position, and the broadcast reads the unit axis at 0. A row's maximum, reduced from -∞ over
  the last axis and compared with -∞ once more, is the mathematics' `rowMax` of that row; the sum over the last axis
  of the shifted exponentials is the mathematics' denominator; so the quotient is `softRow` of the row.
-/
import proofs.«171500_j69200513073212_1_alg».proof.Proof.KOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.CrossAttn
open scoped BigOperators

/-- A per-row value spread along the last axis, read at (p, i, j), is the row's value at (p, i). -/
private theorem spread_apply (v : FVec Ideal S8x256 .f32) (p : Fin 8) (i j : Fin 256) :
    spread (F := Ideal) v (ix3 p i j) = v (ix2 p i) := by
  unfold spread
  refine (broadcastTo_apply _ _ (ix3 p i j) (ix3 p i (0 : Fin 1)) (fun a => match a with
    | ⟨0, _⟩ => by show p.val = (if (8 : Nat) = 1 then 0 else p.val); rw [if_neg (by decide)]
    | ⟨1, _⟩ => by show i.val = (if (256 : Nat) = 1 then 0 else i.val); rw [if_neg (by decide)]
    | ⟨2, _⟩ => by show (0 : Nat) = (if (1 : Nat) = 1 then 0 else j.val); rw [if_pos rfl])).trans ?_
  refine shapeCast_apply _ _ (ix3 p i (0 : Fin 1)) (ix2 p i) ?_
  rw [Shape.rowMajor_val_two, Shape.rowMajor_val_three]
  show p.val * 256 + i.val = (p.val * 256 + i.val) * 1 + 0
  omega

/-- The index the reduction over the last axis inserts coordinate `k` into, at the row (p, i), is (p, i, k). -/
private theorem lift_ix (p : Fin 8) (i k : Fin 256) :
    reduces_S8x256x256_S8x256.lift (ix2 p i) k = ix3 p i k :=
  funext fun a => Fin.ext (by match a with | ⟨0, _⟩ => rfl | ⟨1, _⟩ => rfl | ⟨2, _⟩ => rfl)

/-- A row's maximum as the kernel takes it is the mathematics' `rowMax` of that row. -/
private theorem rowMaxes_apply (X : FVec Ideal S8x256x256 .f32) (p : Fin 8) (i : Fin 256) :
    rowMaxes (F := Ideal) X (ix2 p i) = rowMax (fun k => X (ix3 p i k)) := by
  unfold rowMaxes rowMax
  show max (Ideal.ofBits .f32 0xFF800000#32)
      (multiReduction (F := Ideal) .maximumf [2] S8x256 X 0xFF800000#32 reduces_S8x256x256_S8x256 (.inl rfl) rfl (ix2 p i))
    = max negInf ((Finset.univ : Finset (Fin 256)).fold max negInf fun k => X (ix3 p i k))
  refine congrArg (max (Ideal.ofBits .f32 0xFF800000#32)) ?_
  refine (Ideal.multiReduction_maximumf_single X 0xFF800000#32 reduces_S8x256x256_S8x256 (.inl rfl) rfl (ix2 p i)).trans ?_
  show (Finset.univ : Finset (Fin 256)).fold max (Ideal.ofBits .f32 0xFF800000#32)
      (fun k => X (reduces_S8x256x256_S8x256.lift (ix2 p i) k))
    = (Finset.univ : Finset (Fin 256)).fold max negInf fun k => X (ix3 p i k)
  refine congrArg (fun f : Fin 256 → EReal => (Finset.univ : Finset (Fin 256)).fold max negInf f) (funext fun k => ?_)
  exact congrArg X (lift_ix p i k)

/-- The shifted exponential at (p, i, k): the exponential of the score less its row's maximum. -/
private theorem shifted_apply (X : FVec Ideal S8x256x256 .f32) (p : Fin 8) (i k : Fin 256) :
    shifted (F := Ideal) X (ix3 p i k) = Ideal.exp (X (ix3 p i k) - rowMax (fun k => X (ix3 p i k))) := by
  unfold shifted
  show Ideal.exp (X (ix3 p i k) - spread (rowMaxes X) (ix3 p i k)) = _
  rw [spread_apply, rowMaxes_apply]

theorem softmaxLast_apply (X : FVec Ideal S8x256x256 .f32) (p : Fin 8) (i j : Fin 256) :
    softmaxLast (F := Ideal) X (ix3 p i j) = softRow (fun k => X (ix3 p i k)) j := by
  unfold softmaxLast softRow
  show Ideal.div (shifted X (ix3 p i j))
      (spread (multiReduction (F := Ideal) .add [2] S8x256 (shifted X) 0x00000000#32 reduces_S8x256x256_S8x256 (.inl rfl) rfl)
        (ix3 p i j)) = _
  rw [spread_apply, shifted_apply]
  refine congrArg (Ideal.div _) ?_
  refine (Ideal.multiReduction_add_single (shifted X) 0x00000000#32 reduces_S8x256x256_S8x256 (.inl rfl) rfl (ix2 p i)).trans ?_
  show ∑ k : Fin 256, shifted X (reduces_S8x256x256_S8x256.lift (ix2 p i) k) = _
  refine Finset.sum_congr rfl fun k _ => ?_
  rw [lift_ix, shifted_apply]

theorem swapTokens_apply (X : FVec Ideal S8x256x256 .f32) (p : Fin 8) (i j : Fin 256) :
    swapTokens (F := Ideal) X (ix3 p i j) = X (ix3 p j i) := by
  unfold swapTokens
  exact transpose_apply _ X _ (ix3 p i j) (ix3 p j i)
    (fun b => match b with | ⟨0, _⟩ => rfl | ⟨1, _⟩ => rfl | ⟨2, _⟩ => rfl)

end Cert.KernelIdeal.Body

end
-- ==== Proof.KUnit.lean ====
/-
  The kernel's joined feature block and its rows scaled to unit length, read at an entry.
-/
import proofs.«171500_j69200513073212_1_alg».proof.Proof.KOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.CrossAttn
open scoped BigOperators

/-- The joined block at token `i`, feature `c`: the first block's feature `c` below 384, the second block's feature
    `c - 384` from there on. -/
theorem sideBySide_apply (X : Vec Ideal S8x256x384 .f32) (Z : FVec Ideal S8x256x384 .f32) (p : Fin 8) (i : Fin 256) (c : Fin 768) :
    sideBySide (F := Ideal) X Z (ix3 p i c) = cat (fun d => X (ix3 p i d)) (fun d => Z (ix3 p i d)) c := by
  unfold cat sideBySide
  by_cases h : c.val < 384
  · rw [dif_pos h]
    exact concatenate_pair_apply_left (2 : Fin 3) X Z concatenates_S8x256x384_S8x256x384_S8x256x768_d2 (ix3 p i c) rfl
      (ix3 p i ⟨c.val, h⟩) (fun b => match b with | ⟨0, _⟩ => rfl | ⟨1, _⟩ => rfl | ⟨2, _⟩ => rfl)
  · rw [dif_neg h]
    have hc := c.isLt
    exact concatenate_pair_apply_right (2 : Fin 3) X Z concatenates_S8x256x384_S8x256x384_S8x256x768_d2 (ix3 p i c) rfl rfl
      (ix3 p i ⟨c.val - 384, by omega⟩)
      (fun b hb => match b, hb with | ⟨0, _⟩, _ => rfl | ⟨1, _⟩, _ => rfl | ⟨2, _⟩, hb => absurd rfl hb)
      (by show c.val - 384 + 384 = c.val; omega)

/-- The scaled block at token `i`, feature `c`: the entry over the token's Euclidean length (the root of the sum of
    its 768 squares), the length floored. The length is one value per token, spread along the feature axis. -/
theorem unitRows_apply (C : FVec Ideal S8x256x768 .f32) (p : Fin 8) (i : Fin 256) (c : Fin 768) :
    unitRows (F := Ideal) C (ix3 p i c) = unit (fun k => C (ix3 p i k)) c := by
  unfold unitRows unit
  have hb : broadcastTo S8x256x768
      (maximumf (sqrt (shapeCast S8x256x1
          (multiReduction (F := Ideal) .add [2] S8x256 (mulf C C) 0x00000000#32 reduces_S8x256x768_S8x256 (.inl rfl) rfl)
          shapeCasts_S8x256_S8x256x1))
        (broadcast S8x256x1 (Scalar.ofBits .f32 0x2B8CBCCC#32)))
      broadcasts_S8x256x1_S8x256x768 (ix3 p i c)
      = max (Ideal.sqrt (∑ k : Fin 768, C (ix3 p i k) * C (ix3 p i k))) lenFloor := by
    refine (broadcastTo_apply _ broadcasts_S8x256x1_S8x256x768 (ix3 p i c) (ix3 p i (⟨0, Nat.one_pos⟩ : Fin 1))
      (fun a => match a with
        | ⟨0, _⟩ => by show p.val = (if (8 : Nat) = 1 then 0 else p.val); rw [if_neg (by decide)]
        | ⟨1, _⟩ => by show i.val = (if (256 : Nat) = 1 then 0 else i.val); rw [if_neg (by decide)]
        | ⟨2, _⟩ => by show 0 = (if (1 : Nat) = 1 then 0 else c.val); rw [if_pos rfl])).trans ?_
    show max (Ideal.sqrt (shapeCast S8x256x1
          (multiReduction (F := Ideal) .add [2] S8x256 (mulf C C) 0x00000000#32 reduces_S8x256x768_S8x256 (.inl rfl) rfl)
          shapeCasts_S8x256_S8x256x1 (ix3 p i (⟨0, Nat.one_pos⟩ : Fin 1)))) lenFloor = _
    congr 2
    refine (shapeCast_apply _ shapeCasts_S8x256_S8x256x1 (ix3 p i (⟨0, Nat.one_pos⟩ : Fin 1)) (ix2 p i)
      (by rw [Shape.rowMajor_val_two, Shape.rowMajor_val_three]; show p.val * 256 + i.val = (p.val * 256 + i.val) * 1 + 0; omega)).trans ?_
    refine (Ideal.multiReduction_add_single (mulf C C) 0x00000000#32 reduces_S8x256x768_S8x256 (.inl rfl) rfl (ix2 p i)).trans ?_
    refine Finset.sum_congr rfl fun k _ => ?_
    have e : reduces_S8x256x768_S8x256.lift (ix2 p i) k = ix3 p i k :=
      funext fun a => Fin.ext (by match a with | ⟨0, _⟩ => rfl | ⟨1, _⟩ => rfl | ⟨2, _⟩ => rfl)
    rw [e]
    rfl
  show Ideal.div (C (ix3 p i c)) _ = _
  rw [hb]

end Cert.KernelIdeal.Body

end
-- ==== Proof.KPool.lean ====
/-
  The kernel's masked mean over the tokens and its final scaling to unit length, read at an entry.
-/
import proofs.«171500_j69200513073212_1_alg».proof.Proof.KOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.CrossAttn
open scoped BigOperators

theorem maskedMean_apply (N : FVec Ideal S8x256x768 .f32) (mk : FVec Ideal S8x256 .f32) (p : Fin 8) (c : Fin 768) :
    maskedMean (F := Ideal) N mk (ix2 p c) = pool (fun i k => N (ix3 p i k)) (fun i => mk (ix2 p i)) c := by
  -- the mask as a column, at (p, i, 0)
  have hcol : ∀ i : Fin 256, shapeCast S8x256x1 mk shapeCasts_S8x256_S8x256x1 (ix3 p i (⟨0, Nat.one_pos⟩ : Fin 1)) = mk (ix2 p i) := fun i =>
    shapeCast_apply _ _ (ix3 p i (⟨0, Nat.one_pos⟩ : Fin 1)) (ix2 p i) (by
      rw [Shape.rowMajor_val_two, Shape.rowMajor_val_three]
      show p.val * 256 + i.val = (p.val * 256 + i.val) * 1 + 0; omega)
  -- the column spread along the features, at (p, i, c)
  have hspread : ∀ i : Fin 256, broadcastTo S8x256x768 (shapeCast S8x256x1 mk shapeCasts_S8x256_S8x256x1)
      broadcasts_S8x256x1_S8x256x768 (ix3 p i c) = mk (ix2 p i) := fun i => by
    refine (broadcastTo_apply _ _ (ix3 p i c) (ix3 p i (⟨0, Nat.one_pos⟩ : Fin 1)) (fun a => match a with
      | ⟨0, _⟩ => by show p.val = (if (8 : Nat) = 1 then 0 else p.val); rw [if_neg (by decide)]
      | ⟨1, _⟩ => by show i.val = (if (256 : Nat) = 1 then 0 else i.val); rw [if_neg (by decide)]
      | ⟨2, _⟩ => by show 0 = (if (1 : Nat) = 1 then 0 else c.val); rw [if_pos rfl])).trans ?_
    exact hcol i
  -- the numerator
  have hnum : multiReduction (F := Ideal) .add [1] S8x768
        (mulf N (broadcastTo S8x256x768 (shapeCast S8x256x1 mk shapeCasts_S8x256_S8x256x1) broadcasts_S8x256x1_S8x256x768))
        0x00000000#32 reduces_S8x256x768_S8x768 (.inl rfl) rfl (ix2 p c)
      = ∑ i : Fin 256, N (ix3 p i c) * mk (ix2 p i) := by
    refine (Ideal.multiReduction_add_single
      (mulf N (broadcastTo S8x256x768 (shapeCast S8x256x1 mk shapeCasts_S8x256_S8x256x1) broadcasts_S8x256x1_S8x256x768))
      0x00000000#32 reduces_S8x256x768_S8x768 (.inl rfl) rfl (ix2 p c)).trans ?_
    refine Finset.sum_congr rfl fun i _ => ?_
    have hl : reduces_S8x256x768_S8x768.lift (ix2 p c) i = ix3 p i c := by
      funext a; apply Fin.ext
      match a with | ⟨0, _⟩ => rfl | ⟨1, _⟩ => rfl | ⟨2, _⟩ => rfl
    rw [hl]
    show N (ix3 p i c) * broadcastTo S8x256x768 (shapeCast S8x256x1 mk shapeCasts_S8x256_S8x256x1)
      broadcasts_S8x256x1_S8x256x768 (ix3 p i c) = _
    rw [hspread i]
  -- the count
  have hcnt : multiReduction (F := Ideal) .add [1] S8x1 (shapeCast S8x256x1 mk shapeCasts_S8x256_S8x256x1) 0x00000000#32
        reduces_S8x256x1_S8x1 (.inl rfl) rfl (ix2 p (⟨0, Nat.one_pos⟩ : Fin 1))
      = ∑ i : Fin 256, mk (ix2 p i) := by
    refine (Ideal.multiReduction_add_single (shapeCast S8x256x1 mk shapeCasts_S8x256_S8x256x1)
      0x00000000#32 reduces_S8x256x1_S8x1 (.inl rfl) rfl (ix2 p (⟨0, Nat.one_pos⟩ : Fin 1))).trans ?_
    refine Finset.sum_congr rfl fun i _ => ?_
    have hl : reduces_S8x256x1_S8x1.lift (ix2 p (⟨0, Nat.one_pos⟩ : Fin 1)) i = ix3 p i (⟨0, Nat.one_pos⟩ : Fin 1) := by
      funext a; apply Fin.ext
      match a with | ⟨0, _⟩ => rfl | ⟨1, _⟩ => rfl | ⟨2, _⟩ => rfl
    rw [hl]
    exact hcol i
  -- the denominator
  have hden : broadcastTo S8x768
        (maximumf (multiReduction (F := Ideal) .add [1] S8x1 (shapeCast S8x256x1 mk shapeCasts_S8x256_S8x256x1) 0x00000000#32
            reduces_S8x256x1_S8x1 (.inl rfl) rfl)
          (broadcast S8x1 (Scalar.ofBits .f32 0x3089705F#32)))
        broadcasts_S8x1_S8x768 (ix2 p c)
      = max (∑ i : Fin 256, mk (ix2 p i)) cntFloor := by
    refine (broadcastTo_apply _ _ (ix2 p c) (ix2 p (⟨0, Nat.one_pos⟩ : Fin 1)) (fun a => match a with
      | ⟨0, _⟩ => by show p.val = (if (8 : Nat) = 1 then 0 else p.val); rw [if_neg (by decide)]
      | ⟨1, _⟩ => by show 0 = (if (1 : Nat) = 1 then 0 else c.val); rw [if_pos rfl])).trans ?_
    show max (multiReduction (F := Ideal) .add [1] S8x1 (shapeCast S8x256x1 mk shapeCasts_S8x256_S8x256x1) 0x00000000#32
            reduces_S8x256x1_S8x1 (.inl rfl) rfl (ix2 p (⟨0, Nat.one_pos⟩ : Fin 1))) cntFloor = _
    rw [hcnt]
  show Ideal.div
      (multiReduction (F := Ideal) .add [1] S8x768
        (mulf N (broadcastTo S8x256x768 (shapeCast S8x256x1 mk shapeCasts_S8x256_S8x256x1) broadcasts_S8x256x1_S8x256x768))
        0x00000000#32 reduces_S8x256x768_S8x768 (.inl rfl) rfl (ix2 p c))
      (broadcastTo S8x768
        (maximumf (multiReduction (F := Ideal) .add [1] S8x1 (shapeCast S8x256x1 mk shapeCasts_S8x256_S8x256x1) 0x00000000#32
            reduces_S8x256x1_S8x1 (.inl rfl) rfl)
          (broadcast S8x1 (Scalar.ofBits .f32 0x3089705F#32)))
        broadcasts_S8x1_S8x768 (ix2 p c))
    = Ideal.div (∑ i : Fin 256, N (ix3 p i c) * mk (ix2 p i)) (max (∑ i : Fin 256, mk (ix2 p i)) cntFloor)
  rw [hnum, hden]

theorem unitVecs_apply (R : FVec Ideal S8x768 .f32) (p : Fin 8) (c : Fin 768) :
    unitVecs (F := Ideal) R (ix2 p c) = unit (fun k => R (ix2 p k)) c := by
  -- the sum of squares of batch element p's vector
  have hsum : multiReduction (F := Ideal) .add [1] S8 (mulf R R) 0x00000000#32 reduces_S8x768_S8 (.inl rfl) rfl (ix1 p)
      = ∑ k : Fin 768, R (ix2 p k) * R (ix2 p k) := by
    refine (Ideal.multiReduction_add_single (mulf R R) 0x00000000#32 reduces_S8x768_S8 (.inl rfl) rfl (ix1 p)).trans ?_
    refine Finset.sum_congr rfl fun k _ => ?_
    have hl : reduces_S8x768_S8.lift (ix1 p) k = ix2 p k := by
      funext a; apply Fin.ext
      match a with | ⟨0, _⟩ => rfl | ⟨1, _⟩ => rfl
    rw [hl]; rfl
  -- the same sum seen as a column, at (p, 0)
  have hcast : shapeCast S8x1 (multiReduction (F := Ideal) .add [1] S8 (mulf R R) 0x00000000#32 reduces_S8x768_S8 (.inl rfl) rfl)
        shapeCasts_S8_S8x1 (ix2 p (⟨0, Nat.one_pos⟩ : Fin 1))
      = ∑ k : Fin 768, R (ix2 p k) * R (ix2 p k) := by
    refine (shapeCast_apply _ _ (ix2 p (⟨0, Nat.one_pos⟩ : Fin 1)) (ix1 p) (by
      rw [Shape.rowMajor_val_one, Shape.rowMajor_val_two]; show p.val = p.val * 1 + 0; omega)).trans ?_
    exact hsum
  -- the floored length spread along the features, at (p, c)
  have hb : broadcastTo S8x768
        (maximumf (sqrt (shapeCast S8x1 (multiReduction (F := Ideal) .add [1] S8 (mulf R R) 0x00000000#32 reduces_S8x768_S8 (.inl rfl) rfl)
          shapeCasts_S8_S8x1)) (broadcast S8x1 (Scalar.ofBits .f32 0x2B8CBCCC#32)))
        broadcasts_S8x1_S8x768 (ix2 p c)
      = max (Ideal.sqrt (∑ k : Fin 768, R (ix2 p k) * R (ix2 p k))) lenFloor := by
    refine (broadcastTo_apply _ _ (ix2 p c) (ix2 p (⟨0, Nat.one_pos⟩ : Fin 1)) (fun a => match a with
      | ⟨0, _⟩ => by show p.val = (if (8 : Nat) = 1 then 0 else p.val); rw [if_neg (by decide)]
      | ⟨1, _⟩ => by show 0 = (if (1 : Nat) = 1 then 0 else c.val); rw [if_pos rfl])).trans ?_
    show max (Ideal.sqrt (shapeCast S8x1 (multiReduction (F := Ideal) .add [1] S8 (mulf R R) 0x00000000#32 reduces_S8x768_S8 (.inl rfl) rfl)
          shapeCasts_S8_S8x1 (ix2 p (⟨0, Nat.one_pos⟩ : Fin 1)))) lenFloor = _
    rw [hcast]
  show Ideal.div (R (ix2 p c)) _ = Ideal.div (R (ix2 p c)) _
  rw [hb]

end Cert.KernelIdeal.Body

end
-- ==== Proof.KTotal.lean ====
/-
  The kernel body's two stored blocks at an entry: the stretches of KOps.lean, each read at an entry by its own lemma,
  compose to batch element p's pooled vector (Spec.lean's `pooled`) of the blocks' rows — for the first output the first
  sequence's, for the second the second sequence's with the sequences exchanged and the scores transposed.
-/
import proofs.«171500_j69200513073212_1_alg».proof.Proof.KOps
import proofs.«171500_j69200513073212_1_alg».proof.Proof.Spec
import proofs.«171500_j69200513073212_1_alg».proof.Proof.KScores
import proofs.«171500_j69200513073212_1_alg».proof.Proof.KSoftmax
import proofs.«171500_j69200513073212_1_alg».proof.Proof.KUnit
import proofs.«171500_j69200513073212_1_alg».proof.Proof.KPool

noncomputable section

namespace Cert.KernelIdeal.Body

open Cert.KernelIdeal Cert.KernelIdeal.Gen Idealize.ShloMosaic Idealize.ShloMosaic.ValueIdx Cert.CrossAttn

/-- The first output's block at (p, c): batch element p's first sequence pooled, feature c. -/
theorem firstStored_apply (P0 P1 : Vec Ideal S8x256x384 .f32) (P2 : Vec Ideal S8x256 .i32) (p : Fin 8) (c : Fin 768) :
    k0_pay10 (F := Ideal) (k0_pay2 P2) (k0_pay8 P0 P1) (k0_pay9 P0 P1) (ix2 p c)
      = pooled (score (fun i d => P0 (ix3 p i d)) (fun j d => P1 (ix3 p j d)))
          (fun i d => P0 (ix3 p i d)) (fun j d => P1 (ix3 p j d))
          (fun i => FloatOps.sitofp (F := Ideal) .f32 (P2 (ix2 p i))) c := by
  rw [firstStored_eq, firstSide_eq]
  simp only [unitVecs_apply, maskedMean_apply, unitRows_apply, sideBySide_apply, attended_apply, softmaxLast_apply,
    scores_apply]
  rfl

/-- The second output's block at (p, c): batch element p's second sequence pooled, feature c. -/
theorem secondStored_apply (P0 P1 : Vec Ideal S8x256x384 .f32) (P3 : Vec Ideal S8x256 .i32) (p : Fin 8) (c : Fin 768) :
    k0_pay1 (F := Ideal) (k0_pay11 P1 (k0_pay3 P3) (k0_pay7 P0 P1)) (k0_pay12 P1 (k0_pay3 P3) (k0_pay7 P0 P1)) (ix2 p c)
      = pooled (fun j i => score (fun i d => P0 (ix3 p i d)) (fun j d => P1 (ix3 p j d)) i j)
          (fun j d => P1 (ix3 p j d)) (fun i d => P0 (ix3 p i d))
          (fun j => FloatOps.sitofp (F := Ideal) .f32 (P3 (ix2 p j))) c := by
  rw [secondStored_eq, secondAttended_eq]
  simp only [unitVecs_apply, maskedMean_apply, unitRows_apply, sideBySide_apply, attended_apply, softmaxLast_apply,
    swapTokens_apply, scores_apply]
  rfl

end Cert.KernelIdeal.Body

end
-- ==== Proof.Whole.lean ====
/-
  The two results as whole arrays over the 128 batch elements: entry (b, c) of a result is feature c of batch element
  b's pooled vector (Spec.lean's `pooled`) — for the first result the first sequence's, with the scores as they are; for
  the second the second sequence's, with the two sequences exchanged and the score matrix transposed. `M` is a mask
  already read as numbers.
-/
import proofs.«171500_j69200513073212_1_alg».proof.Proof.Spec

noncomputable section

namespace Cert.CrossAttn

open Idealize.ShloMosaic Idealize.ShloMosaic.ValueIdx

/-- Batch element `b`'s tokens out of a whole feature array. -/
def tokens (X : (⟨3, ![128, 256, 384]⟩ : Shape).Idx → EReal) (b : Fin 128) : Fin 256 → Fin 384 → EReal :=
  fun i d => X (ix3 b i d)

/-- Batch element `b`'s mask out of a whole mask array. -/
def maskOf (M : (⟨2, ![128, 256]⟩ : Shape).Idx → EReal) (b : Fin 128) : Fin 256 → EReal := fun i => M (ix2 b i)

/-- The batch element an entry of a result belongs to, and its feature. -/
def batchOf (y : (⟨2, ![128, 768]⟩ : Shape).Idx) : Fin 128 := ⟨(y 0).val, idx2_lt0 y⟩
def featOf (y : (⟨2, ![128, 768]⟩ : Shape).Idx) : Fin 768 := ⟨(y 1).val, idx2_lt1 y⟩

/-- The first result: every batch element's first sequence pooled. -/
def firstWhole (Q A : (⟨3, ![128, 256, 384]⟩ : Shape).Idx → EReal) (M : (⟨2, ![128, 256]⟩ : Shape).Idx → EReal) :
    (⟨2, ![128, 768]⟩ : Shape).Idx → EReal :=
  fun y => pooled (score (tokens Q (batchOf y)) (tokens A (batchOf y))) (tokens Q (batchOf y)) (tokens A (batchOf y))
    (maskOf M (batchOf y)) (featOf y)

/-- The second result: every batch element's second sequence pooled, its scores the transposed ones. -/
def secondWhole (Q A : (⟨3, ![128, 256, 384]⟩ : Shape).Idx → EReal) (M : (⟨2, ![128, 256]⟩ : Shape).Idx → EReal) :
    (⟨2, ![128, 768]⟩ : Shape).Idx → EReal :=
  fun y => pooled (fun j i => score (tokens Q (batchOf y)) (tokens A (batchOf y)) i j) (tokens A (batchOf y))
    (tokens Q (batchOf y)) (maskOf M (batchOf y)) (featOf y)

theorem batchOf_ix2 (b : Fin 128) (c : Fin 768) : batchOf (ix2 b c) = b := rfl
theorem featOf_ix2 (b : Fin 128) (c : Fin 768) : featOf (ix2 b c) = c := rfl

end Cert.CrossAttn

end
-- ==== Proof.KBlocks.lean ====
/-
  From a block of 8 batch elements to the whole arrays. The kernel's grid point r works on batch elements 8r … 8r+7:
  its input blocks are those rows of the argument arrays, and entry (p, c) of what it stores is entry (8r + p, c) of
  the specification's whole array (Whole.lean), because a batch element's pooled vector depends on that batch
  element's rows only. Stated over variables: any vectors that read as rows 8r + p of the arrays.
-/
import proofs.«171500_j69200513073212_1_alg».proof.Proof.KTotal
import proofs.«171500_j69200513073212_1_alg».proof.Proof.Whole

noncomputable section

namespace Cert.KernelIdeal.Body

open Cert.KernelIdeal Cert.KernelIdeal.Gen Idealize.ShloMosaic Idealize.ShloMosaic.ValueIdx Cert.CrossAttn

/-- The first stored block is the block of rows 8r … 8r+7 of the first whole array. -/
theorem first_block (P0 P1 : Vec Ideal S8x256x384 .f32) (P2 : Vec Ideal S8x256 .i32)
    (Q A : Vec Ideal S128x256x384 .f32) (M : Vec Ideal S128x256 .i32) (r : Nat)
    (h0 : ∀ (p : Fin 8) (b : Fin 128), b.val = 8 * r + p.val → ∀ (i : Fin 256) (d : Fin 384), P0 (ix3 p i d) = Q (ix3 b i d))
    (h1 : ∀ (p : Fin 8) (b : Fin 128), b.val = 8 * r + p.val → ∀ (i : Fin 256) (d : Fin 384), P1 (ix3 p i d) = A (ix3 b i d))
    (h2 : ∀ (p : Fin 8) (b : Fin 128), b.val = 8 * r + p.val → ∀ (i : Fin 256), P2 (ix2 p i) = M (ix2 b i))
    (y : S8x768.Idx) (z : S128x768.Idx) (hz0 : (z 0).val = 8 * r + (y 0).val) (hz1 : (z 1).val = (y 1).val) :
    k0_pay10 (F := Ideal) (k0_pay2 P2) (k0_pay8 P0 P1) (k0_pay9 P0 P1) y
      = firstWhole Q A (sitofp (F := Ideal) .f32 M) z := by
  obtain ⟨p, c, rfl⟩ : ∃ (p : Fin 8) (c : Fin 768), y = ix2 p c := ⟨y 0, y 1, eq_ix2 y⟩
  obtain ⟨b, c', rfl⟩ : ∃ (b : Fin 128) (c' : Fin 768), z = ix2 b c' := ⟨z 0, z 1, eq_ix2 z⟩
  have hb : b.val = 8 * r + p.val := hz0
  have hc : c' = c := Fin.ext hz1
  subst hc
  rw [firstStored_apply]
  have e0 : (fun i d => P0 (ix3 p i d)) = tokens Q b := funext fun i => funext fun d => h0 p b hb i d
  have e1 : (fun j d => P1 (ix3 p j d)) = tokens A b := funext fun i => funext fun d => h1 p b hb i d
  have e2 : (fun i => FloatOps.sitofp (F := Ideal) .f32 (P2 (ix2 p i))) = maskOf (sitofp (F := Ideal) .f32 M) b :=
    funext fun i => congrArg (FloatOps.sitofp (F := Ideal) .f32) (h2 p b hb i)
  rw [e0, e1, e2]
  rfl

/-- The second stored block is the block of rows 8r … 8r+7 of the second whole array. -/
theorem second_block (P0 P1 : Vec Ideal S8x256x384 .f32) (P3 : Vec Ideal S8x256 .i32)
    (Q A : Vec Ideal S128x256x384 .f32) (M : Vec Ideal S128x256 .i32) (r : Nat)
    (h0 : ∀ (p : Fin 8) (b : Fin 128), b.val = 8 * r + p.val → ∀ (i : Fin 256) (d : Fin 384), P0 (ix3 p i d) = Q (ix3 b i d))
    (h1 : ∀ (p : Fin 8) (b : Fin 128), b.val = 8 * r + p.val → ∀ (i : Fin 256) (d : Fin 384), P1 (ix3 p i d) = A (ix3 b i d))
    (h3 : ∀ (p : Fin 8) (b : Fin 128), b.val = 8 * r + p.val → ∀ (i : Fin 256), P3 (ix2 p i) = M (ix2 b i))
    (y : S8x768.Idx) (z : S128x768.Idx) (hz0 : (z 0).val = 8 * r + (y 0).val) (hz1 : (z 1).val = (y 1).val) :
    k0_pay1 (F := Ideal) (k0_pay11 P1 (k0_pay3 P3) (k0_pay7 P0 P1)) (k0_pay12 P1 (k0_pay3 P3) (k0_pay7 P0 P1)) y
      = secondWhole Q A (sitofp (F := Ideal) .f32 M) z := by
  obtain ⟨p, c, rfl⟩ : ∃ (p : Fin 8) (c : Fin 768), y = ix2 p c := ⟨y 0, y 1, eq_ix2 y⟩
  obtain ⟨b, c', rfl⟩ : ∃ (b : Fin 128) (c' : Fin 768), z = ix2 b c' := ⟨z 0, z 1, eq_ix2 z⟩
  have hb : b.val = 8 * r + p.val := hz0
  have hc : c' = c := Fin.ext hz1
  subst hc
  rw [secondStored_apply]
  have e0 : (fun i d => P0 (ix3 p i d)) = tokens Q b := funext fun i => funext fun d => h0 p b hb i d
  have e1 : (fun j d => P1 (ix3 p j d)) = tokens A b := funext fun i => funext fun d => h1 p b hb i d
  have e3 : (fun j => FloatOps.sitofp (F := Ideal) .f32 (P3 (ix2 p j))) = maskOf (sitofp (F := Ideal) .f32 M) b :=
    funext fun i => congrArg (FloatOps.sitofp (F := Ideal) .f32) (h3 p b hb i)
  rw [e0, e1, e3]
  rfl

end Cert.KernelIdeal.Body

end
-- ==== Proof.KFinal.lean ====
/-
  The kernel's two result arrays after the run. Grid point t stages rows 8t … 8t+7 of every argument array (the index
  maps, decided over the 16 points) and writes back rows 8t … 8t+7 of each result; what it writes is those rows of the
  specification's whole arrays (KBlocks.lean), and the 16 blocks cover all 128 rows, so each result array ends as
  the specification's whole array of the arguments.
-/
import proofs.«171500_j69200513073212_1_alg».proof.Proof.KValue
import proofs.«171500_j69200513073212_1_alg».proof.Proof.KBlocks
import Idealize.ShloMosaic.Lib.Pipeline.Value

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.ValueIdx Cert.CrossAttn
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Every window's block index at grid point t is (t, 0, …): the grid walks the batch axis and nothing else. -/
theorem maps : ∀ t : Fin cfg0.N,
      win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The argument arrays as the region finds them, and the blocks grid point t stages, at their literal types. -/
abbrev qArr (c : Dev nD) : Vec Ideal S128x256x384 .f32 := V m c main_arg0
abbrev aArr (c : Dev nD) : Vec Ideal S128x256x384 .f32 := V m c main_arg1
abbrev qMask (c : Dev nD) : Vec Ideal S128x256 .i32 := V m c main_arg2
abbrev aMask (c : Dev nD) : Vec Ideal S128x256 .i32 := V m c main_arg3
abbrev qBlk (c : Dev nD) (t : Fin cfg0.N) : Vec Ideal S8x256x384 .f32 := iblk m c 0 t
abbrev aBlk (c : Dev nD) (t : Fin cfg0.N) : Vec Ideal S8x256x384 .f32 := iblk m c 1 t
abbrev qMaskBlk (c : Dev nD) (t : Fin cfg0.N) : Vec Ideal S8x256 .i32 := iblk m c 2 t
abbrev aMaskBlk (c : Dev nD) (t : Fin cfg0.N) : Vec Ideal S8x256 .i32 := iblk m c 3 t

/-- Row p of the block staged at t is row 8t + p of the array. -/
theorem qBlk_apply (c : Dev nD) (t : Fin cfg0.N) (p : Fin 8) (b : Fin 128) (hb : b.val = 8 * t.val + p.val)
    (i : Fin 256) (d : Fin 384) : qBlk m c t (ix3 p i d) = qArr m c (ix3 b i d) := by
  obtain ⟨e0, e1, e2, -⟩ := maps t
  show V m c main_arg0 (((cfg0.win 0).blk t).view.emb (ix3 p i d)) = V m c main_arg0 (ix3 b i d)
  refine congrArg (V m c main_arg0) (funext fun a => Fin.ext ?_)
  match a with
  | ⟨0, _⟩ => show win0_0.index t (0 : Fin 3) * 8 + 1 * p.val = b.val; omega
  | ⟨1, _⟩ => show win0_0.index t (1 : Fin 3) * 256 + 1 * i.val = i.val; omega
  | ⟨2, _⟩ => show win0_0.index t (2 : Fin 3) * 384 + 1 * d.val = d.val; omega

theorem aBlk_apply (c : Dev nD) (t : Fin cfg0.N) (p : Fin 8) (b : Fin 128) (hb : b.val = 8 * t.val + p.val)
    (i : Fin 256) (d : Fin 384) : aBlk m c t (ix3 p i d) = aArr m c (ix3 b i d) := by
  obtain ⟨-, -, -, e0, e1, e2, -⟩ := maps t
  show V m c main_arg1 (((cfg0.win 1).blk t).view.emb (ix3 p i d)) = V m c main_arg1 (ix3 b i d)
  refine congrArg (V m c main_arg1) (funext fun a => Fin.ext ?_)
  match a with
  | ⟨0, _⟩ => show win0_1.index t (0 : Fin 3) * 8 + 1 * p.val = b.val; omega
  | ⟨1, _⟩ => show win0_1.index t (1 : Fin 3) * 256 + 1 * i.val = i.val; omega
  | ⟨2, _⟩ => show win0_1.index t (2 : Fin 3) * 384 + 1 * d.val = d.val; omega

theorem qMaskBlk_apply (c : Dev nD) (t : Fin cfg0.N) (p : Fin 8) (b : Fin 128) (hb : b.val = 8 * t.val + p.val)
    (i : Fin 256) : qMaskBlk m c t (ix2 p i) = qMask m c (ix2 b i) := by
  obtain ⟨-, -, -, -, -, -, e0, e1, -⟩ := maps t
  show V m c main_arg2 (((cfg0.win 2).blk t).view.emb (ix2 p i)) = V m c main_arg2 (ix2 b i)
  refine congrArg (V m c main_arg2) (funext fun a => Fin.ext ?_)
  match a with
  | ⟨0, _⟩ => show win0_2.index t (0 : Fin 2) * 8 + 1 * p.val = b.val; omega
  | ⟨1, _⟩ => show win0_2.index t (1 : Fin 2) * 256 + 1 * i.val = i.val; omega

theorem aMaskBlk_apply (c : Dev nD) (t : Fin cfg0.N) (p : Fin 8) (b : Fin 128) (hb : b.val = 8 * t.val + p.val)
    (i : Fin 256) : aMaskBlk m c t (ix2 p i) = aMask m c (ix2 b i) := by
  obtain ⟨-, -, -, -, -, -, -, -, e0, e1, -⟩ := maps t
  show V m c main_arg3 (((cfg0.win 3).blk t).view.emb (ix2 p i)) = V m c main_arg3 (ix2 b i)
  refine congrArg (V m c main_arg3) (funext fun a => Fin.ext ?_)
  match a with
  | ⟨0, _⟩ => show win0_3.index t (0 : Fin 2) * 8 + 1 * p.val = b.val; omega
  | ⟨1, _⟩ => show win0_3.index t (1 : Fin 2) * 256 + 1 * i.val = i.val; omega

/-- What grid point t writes back to the first result is block t of the first whole array. -/
theorem flushed4_eq (c : Dev nD) (t : Fin cfg0.N) :
    (dats m 0 c).flushed 4 t = ((cfg0.win 4).blk t).view.read (Elt Ideal)
      (firstWhole (qArr m c) (aArr m c) (sitofp (F := Ideal) .f32 (qMask m c))) := by
  rw [Cert.KernelIdeal.ValueP.flushed4]
  unfold out0_4
  rw [View.canon_unit_zero zero2]
  simp only [View.ld_unit_zero (S := S8x256x384) zero3, View.ld_unit_zero (S := S8x256) zero2]
  obtain ⟨-, -, -, -, -, -, -, -, -, -, e0, e1, -⟩ := maps t
  funext j
  exact first_block (qBlk m c t) (aBlk m c t) (qMaskBlk m c t) (qArr m c) (aArr m c) (qMask m c) t.val
    (fun p b hb i d => qBlk_apply m c t p b hb i d) (fun p b hb i d => aBlk_apply m c t p b hb i d)
    (fun p b hb i => qMaskBlk_apply m c t p b hb i) j (((cfg0.win 4).blk t).view.emb j)
    (by show win0_4.index t (0 : Fin 2) * 8 + 1 * (j 0).val = 8 * t.val + (j 0).val; omega)
    (by show win0_4.index t (1 : Fin 2) * 768 + 1 * (j 1).val = (j 1).val; omega)

/-- What grid point t writes back to the second result is block t of the second whole array. -/
theorem flushed5_eq (c : Dev nD) (t : Fin cfg0.N) :
    (dats m 0 c).flushed 5 t = ((cfg0.win 5).blk t).view.read (Elt Ideal)
      (secondWhole (qArr m c) (aArr m c) (sitofp (F := Ideal) .f32 (aMask m c))) := by
  rw [Cert.KernelIdeal.ValueP.flushed5]
  unfold out0_5
  rw [View.canon_unit_zero zero2]
  simp only [View.ld_unit_zero (S := S8x256x384) zero3, View.ld_unit_zero (S := S8x256) zero2]
  obtain ⟨-, -, -, -, -, -, -, -, -, -, -, -, e0, e1⟩ := maps t
  funext j
  exact second_block (qBlk m c t) (aBlk m c t) (aMaskBlk m c t) (qArr m c) (aArr m c) (aMask m c) t.val
    (fun p b hb i d => qBlk_apply m c t p b hb i d) (fun p b hb i d => aBlk_apply m c t p b hb i d)
    (fun p b hb i => aMaskBlk_apply m c t p b hb i) j (((cfg0.win 5).blk t).view.emb j)
    (by show win0_5.index t (0 : Fin 2) * 8 + 1 * (j 0).val = 8 * t.val + (j 0).val; omega)
    (by show win0_5.index t (1 : Fin 2) * 768 + 1 * (j 1).val = (j 1).val; omega)

/-- An entry of a result is in grid point t's block iff each coordinate is in the block's range on its axis. -/
theorem mem_blk4 (t : Fin cfg0.N) (i : S128x768.Idx) :
    i ∈ ((cfg0.win 4).blk t).view.set ↔ ∀ a : Fin 2, win0_4.index t a * S8x768.size a ≤ (i a).val ∧ (i a).val < win0_4.index t a * S8x768.size a + S8x768.size a := by
  show i ∈ ((View.whole main_v0_0).slice (win0_4.rect t)).set ↔ _
  rw [View.set_slice_whole, Rect.mem_set_unit]
  exact Iff.rfl

theorem mem_blk5 (t : Fin cfg0.N) (i : S128x768.Idx) :
    i ∈ ((cfg0.win 5).blk t).view.set ↔ ∀ a : Fin 2, win0_5.index t a * S8x768.size a ≤ (i a).val ∧ (i a).val < win0_5.index t a * S8x768.size a + S8x768.size a := by
  show i ∈ ((View.whole main_v0_1).slice (win0_5.rect t)).set ↔ _
  rw [View.set_slice_whole, Rect.mem_set_unit]
  exact Iff.rfl

/-- Row r of a result lies in the block of grid point r / 8: the 16 blocks cover the 128 rows. -/
theorem cover4 (i : S128x768.Idx) : ∃ t : Fin cfg0.N, (cfg0.win 4).flush t = true ∧ i ∈ ((cfg0.win 4).blk t).view.set := by
  have hi0 : (i 0).val < 128 := (i 0).isLt
  have hi1 : (i 1).val < 768 := (i 1).isLt
  have ht : (i 0).val / 8 < 16 := by omega
  obtain ⟨-, -, -, -, -, -, -, -, -, -, e0, e1, -⟩ := maps ⟨(i 0).val / 8, ht⟩
  have e0' : win0_4.index ⟨(i 0).val / 8, ht⟩ (0 : Fin 2) = (i 0).val / 8 := e0
  refine ⟨⟨(i 0).val / 8, ht⟩, flush0_4 _, ?_⟩
  rw [mem_blk4]
  intro a
  match a with
  | ⟨0, _⟩ => show win0_4.index ⟨(i 0).val / 8, ht⟩ (0 : Fin 2) * 8 ≤ (i 0).val ∧ (i 0).val < win0_4.index ⟨(i 0).val / 8, ht⟩ (0 : Fin 2) * 8 + 8; omega
  | ⟨1, _⟩ => show win0_4.index ⟨(i 0).val / 8, ht⟩ (1 : Fin 2) * 768 ≤ (i 1).val ∧ (i 1).val < win0_4.index ⟨(i 0).val / 8, ht⟩ (1 : Fin 2) * 768 + 768; omega

theorem cover5 (i : S128x768.Idx) : ∃ t : Fin cfg0.N, (cfg0.win 5).flush t = true ∧ i ∈ ((cfg0.win 5).blk t).view.set := by
  have hi0 : (i 0).val < 128 := (i 0).isLt
  have hi1 : (i 1).val < 768 := (i 1).isLt
  have ht : (i 0).val / 8 < 16 := by omega
  obtain ⟨-, -, -, -, -, -, -, -, -, -, -, -, e0, e1⟩ := maps ⟨(i 0).val / 8, ht⟩
  have e0' : win0_5.index ⟨(i 0).val / 8, ht⟩ (0 : Fin 2) = (i 0).val / 8 := e0
  refine ⟨⟨(i 0).val / 8, ht⟩, flush0_5 _, ?_⟩
  rw [mem_blk5]
  intro a
  match a with
  | ⟨0, _⟩ => show win0_5.index ⟨(i 0).val / 8, ht⟩ (0 : Fin 2) * 8 ≤ (i 0).val ∧ (i 0).val < win0_5.index ⟨(i 0).val / 8, ht⟩ (0 : Fin 2) * 8 + 8; omega
  | ⟨1, _⟩ => show win0_5.index ⟨(i 0).val / 8, ht⟩ (1 : Fin 2) * 768 ≤ (i 1).val ∧ (i 1).val < win0_5.index ⟨(i 0).val / 8, ht⟩ (1 : Fin 2) * 768 + 768; omega

/-- The first result array after the run is the first whole array of the arguments. -/
theorem final4 (c : Dev nD) :
    (dats m 0 c).arrAt 4 cfg0.N = firstWhole (qArr m c) (aArr m c) (sitofp (F := Ideal) .f32 (qMask m c)) :=
  (dats m 0 c).arrAt_eq_of_cover 4 _ (fun t _ => flushed4_eq m c t) cover4

/-- The second result array after the run is the second whole array of the arguments. -/
theorem final5 (c : Dev nD) :
    (dats m 0 c).arrAt 5 cfg0.N = secondWhole (qArr m c) (aArr m c) (sitofp (F := Ideal) .f32 (aMask m c)) :=
  (dats m 0 c).arrAt_eq_of_cover 5 _ (fun t _ => flushed5_eq m c t) cover5

/-- The kernel's run at the exact instance: both results at the specification's whole arrays of the arguments as
    launched, the arguments unchanged. -/
theorem run : θ_run defs (onTc (τ := τ) (main (F := Ideal))) ⟨m, fun _ => 0, ρ⟩ fun r => ∀ c : Dev nD,
      r.2.mem ((c : Thread nD τ).loc main_v0_0) = firstWhole (qArr m c) (aArr m c) (sitofp (F := Ideal) .f32 (qMask m c))
      ∧ r.2.mem ((c : Thread nD τ).loc main_v0_1) = secondWhole (qArr m c) (aArr m c) (sitofp (F := Ideal) .f32 (aMask m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.ValueP.run_blocks m ρ)

end Cert.KernelIdeal.Arrays

end
-- ==== Proof.HOps.lean ====
/-
  The reference's arithmetic, cut into the same stretches as the kernel body's: the softmax along the last axis of the
  array of scores, the scores with their token axes exchanged, the attended features (a batched product with the other
  sequence's array), the two feature arrays side by side, the rows scaled to unit length, the masked mean over the
  tokens, the final scaling to unit length. Each stretch is the reference's own host operations over its operands as
  variables, at any float family.
-/
import proofs.«171500_j69200513073212_1_alg».proof.Proof.Gen.ReferenceIdeal

noncomputable section

namespace Cert.ReferenceIdeal.Stretch

open Cert.ReferenceIdeal Cert.ReferenceIdeal.Gen Idealize.ShloMosaic

variable {F : FTy → Type} [FloatOps F]

/-- Every pair of tokens' score: the batched product over the features. -/
def scores (Q A : Vec F S128x256x384 .f32) : Vec F S128x256x256 .f32 :=
  Host.dotGeneral dot_S128x256x384_S128x256x384_S128x256x256_2_2_1_1_0_0 none Q A

/-- A per-row value spread along the last axis of the array of scores. -/
def spread (v : Vec F S128x256 .f32) : Vec F S128x256x256 .f32 :=
  broadcastInDim S128x256x256 ![0, 1, 2] bcast_S128x256x1_S128x256x256_0_1_2
    (broadcastInDim S128x256x1 ![0, 1] bcast_S128x256_S128x256x1_0_1 v)

/-- Each row's maximum, reduced from `-∞` and compared with `-∞` once more. -/
def rowMaxes (X : Vec F S128x256x256 .f32) : Vec F S128x256 .f32 :=
  maximumf (broadcastInDim S128x256 ![] bcast_S_S128x256 (constant S_ .f32 0xFF800000#32))
    (Host.reduce FloatOps.maximumf X (constant S_ .f32 0xFF800000#32) reducesTo_S128x256x256_S128x256_d2 h_S_)

/-- The exponentials of the scores less their row's maximum. -/
def shifted (X : Vec F S128x256x256 .f32) : Vec F S128x256x256 .f32 :=
  Host.exp (subf X (spread (rowMaxes X)))

/-- The softmax along the last axis. -/
def softmaxLast (X : Vec F S128x256x256 .f32) : Vec F S128x256x256 .f32 :=
  Host.divf (shifted X)
    (spread (Host.reduceAdd (shifted X) (constant S_ .f32 0x00000000#32) reducesTo_S128x256x256_S128x256_d2 h_S_))

/-- The array of scores with its two token axes exchanged. -/
def swapTokens (X : Vec F S128x256x256 .f32) : Vec F S128x256x256 .f32 :=
  transpose S128x256x256 [0, 2, 1] X transposes_S128x256x256_S128x256x256_0_2_1

/-- The attended features: the weights times the other sequence's array, batch by batch. -/
def attended (W : Vec F S128x256x256 .f32) (Y : Vec F S128x256x384 .f32) : Vec F S128x256x384 .f32 :=
  Host.dotGeneral dot_S128x256x256_S128x256x384_S128x256x384_2_1_1_2_0_0 none W Y

/-- A sequence's own features followed by its attended ones, along the feature axis. -/
def sideBySide (X Z : Vec F S128x256x384 .f32) : Vec F S128x256x768 .f32 :=
  concatenate S128x256x768 2 [⟨S128x256x384, X⟩, ⟨S128x256x384, Z⟩] concatenates_S128x256x384_S128x256x384_S128x256x768_d2

/-- Every token's 768 features scaled to unit Euclidean length, the length floored. -/
def unitRows (C : Vec F S128x256x768 .f32) : Vec F S128x256x768 .f32 :=
  Host.divf C (broadcastInDim S128x256x768 ![0, 1, 2] bcast_S128x256x1_S128x256x768_0_1_2
    (maximumf
      (Host.sqrt (broadcastInDim S128x256x1 ![0, 1] bcast_S128x256_S128x256x1_0_1
        (Host.reduceAdd (mulf C C) (constant S_ .f32 0x00000000#32) reducesTo_S128x256x768_S128x256_d2 h_S_)))
      (broadcastInDim S128x256x1 ![] bcast_S_S128x256x1 (constant S_ .f32 0x2B8CBCCC#32))))

/-- The masked mean over the tokens, the count floored. -/
def maskedMean (N : Vec F S128x256x768 .f32) (mk : Vec F S128x256 .f32) : Vec F S128x768 .f32 :=
  Host.divf
    (Host.reduceAdd
      (mulf N (broadcastInDim S128x256x768 ![0, 1, 2] bcast_S128x256x1_S128x256x768_0_1_2
        (broadcastInDim S128x256x1 ![0, 1] bcast_S128x256_S128x256x1_0_1 mk)))
      (constant S_ .f32 0x00000000#32) reducesTo_S128x256x768_S128x768_d1 h_S_)
    (broadcastInDim S128x768 ![0, 1] bcast_S128x1_S128x768_0_1
      (maximumf
        (Host.reduceAdd (broadcastInDim S128x256x1 ![0, 1] bcast_S128x256_S128x256x1_0_1 mk)
          (constant S_ .f32 0x00000000#32) reducesTo_S128x256x1_S128x1_d1 h_S_)
        (broadcastInDim S128x1 ![] bcast_S_S128x1 (constant S_ .f32 0x3089705F#32))))

/-- A pooled vector per batch element scaled to unit Euclidean length, the length floored. -/
def unitVecs (R : Vec F S128x768 .f32) : Vec F S128x768 .f32 :=
  Host.divf R (broadcastInDim S128x768 ![0, 1] bcast_S128x1_S128x768_0_1
    (maximumf
      (Host.sqrt (broadcastInDim S128x1 ![0] bcast_S128_S128x1_0
        (Host.reduceAdd (mulf R R) (constant S_ .f32 0x00000000#32) reducesTo_S128x768_S128_d1 h_S_)))
      (broadcastInDim S128x1 ![] bcast_S_S128x1 (constant S_ .f32 0x2B8CBCCC#32))))

/-- The reference's first result as the stretches composed. -/
def first (Q A : Vec F S128x256x384 .f32) (M : Vec F S128x256 .i32) : Vec F S128x768 .f32 :=
  unitVecs (maskedMean (unitRows (sideBySide Q (attended (softmaxLast (scores Q A)) A))) (sitofp (F := F) .f32 M))

/-- The reference's second result as the stretches composed. -/
def second (Q A : Vec F S128x256x384 .f32) (M : Vec F S128x256 .i32) : Vec F S128x768 .f32 :=
  unitVecs (maskedMean (unitRows (sideBySide A (attended (softmaxLast (swapTokens (scores Q A))) Q))) (sitofp (F := F) .f32 M))

end Cert.ReferenceIdeal.Stretch

end
-- ==== Proof.HScores.lean ====
/-
  The reference's two batched products read at an entry, on the extended reals.
-/
import proofs.«171500_j69200513073212_1_alg».proof.Proof.HOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stretch

open Cert.ReferenceIdeal Cert.ReferenceIdeal.Gen Idealize.ShloMosaic Idealize.ShloMosaic.ValueIdx Cert.CrossAttn
open scoped BigOperators

/-! ### The scores' product: the coordinates its dimension numbers send an entry and a contraction index to -/

theorem scores_lhs_0 (i : S128x256x256.Idx) (q : dot_S128x256x384_S128x256x384_S128x256x256_2_2_1_1_0_0.contr.Idx) :
    (dot_S128x256x384_S128x256x384_S128x256x256_2_2_1_1_0_0.lhsIdx i q 0).val = (i 0).val := by
  unfold DotDims.lhsIdx
  rw [dif_pos (show (0 : Fin S128x256x384.rank) ∈ dot_S128x256x384_S128x256x384_S128x256x256_2_2_1_1_0_0.lhsBatch by decide)]
  rfl
theorem scores_lhs_1 (i : S128x256x256.Idx) (q : dot_S128x256x384_S128x256x384_S128x256x256_2_2_1_1_0_0.contr.Idx) :
    (dot_S128x256x384_S128x256x384_S128x256x256_2_2_1_1_0_0.lhsIdx i q 1).val = (i 1).val := by
  unfold DotDims.lhsIdx
  rw [dif_neg (show ¬(1 : Fin S128x256x384.rank) ∈ dot_S128x256x384_S128x256x384_S128x256x256_2_2_1_1_0_0.lhsBatch by decide), dif_pos (show (1 : Fin S128x256x384.rank) ∈ dot_S128x256x384_S128x256x384_S128x256x256_2_2_1_1_0_0.lhsNonContracting by decide)]
  rfl
theorem scores_lhs_2 (i : S128x256x256.Idx) (q : dot_S128x256x384_S128x256x384_S128x256x256_2_2_1_1_0_0.contr.Idx) :
    (dot_S128x256x384_S128x256x384_S128x256x256_2_2_1_1_0_0.lhsIdx i q 2).val = (q ⟨0, by decide⟩).val :=
  dot_S128x256x384_S128x256x384_S128x256x256_2_2_1_1_0_0.lhsIdx_val_of_single rfl i q
theorem scores_rhs_0 (i : S128x256x256.Idx) (q : dot_S128x256x384_S128x256x384_S128x256x256_2_2_1_1_0_0.contr.Idx) :
    (dot_S128x256x384_S128x256x384_S128x256x256_2_2_1_1_0_0.rhsIdx i q 0).val = (i 0).val := by
  unfold DotDims.rhsIdx
  rw [dif_pos (show (0 : Fin S128x256x384.rank) ∈ dot_S128x256x384_S128x256x384_S128x256x256_2_2_1_1_0_0.rhsBatch by decide)]
  rfl
theorem scores_rhs_1 (i : S128x256x256.Idx) (q : dot_S128x256x384_S128x256x384_S128x256x256_2_2_1_1_0_0.contr.Idx) :
    (dot_S128x256x384_S128x256x384_S128x256x256_2_2_1_1_0_0.rhsIdx i q 1).val = (i 2).val := by
  unfold DotDims.rhsIdx
  rw [dif_neg (show ¬(1 : Fin S128x256x384.rank) ∈ dot_S128x256x384_S128x256x384_S128x256x256_2_2_1_1_0_0.rhsBatch by decide), dif_pos (show (1 : Fin S128x256x384.rank) ∈ dot_S128x256x384_S128x256x384_S128x256x256_2_2_1_1_0_0.rhsNonContracting by decide)]
  rfl
theorem scores_rhs_2 (i : S128x256x256.Idx) (q : dot_S128x256x384_S128x256x384_S128x256x256_2_2_1_1_0_0.contr.Idx) :
    (dot_S128x256x384_S128x256x384_S128x256x256_2_2_1_1_0_0.rhsIdx i q 2).val = (q ⟨0, by decide⟩).val :=
  dot_S128x256x384_S128x256x384_S128x256x256_2_2_1_1_0_0.rhsIdx_val_of_single rfl i q

/-- The entry `(b, i, j)` of the scores is the inner product over the 384 features of token `i` of the first sequence
    and token `j` of the second, both of batch element `b`: the batch axis is carried, each operand's token axis is
    free, and the one contracted axis is the feature axis of both. -/
theorem scores_apply (Q A : Vec Ideal S128x256x384 .f32) (b : Fin 128) (i j : Fin 256) :
    scores (F := Ideal) Q A (ix3 b i j) = score (fun i d => Q (ix3 b i d)) (fun j d => A (ix3 b j d)) i j := by
  unfold scores score
  simp only [Host.dotGeneral]
  rw [Ideal.dotGeneral_apply, ← Equiv.sum_comp (ValueIdx.contrEquiv1 dot_S128x256x384_S128x256x384_S128x256x256_2_2_1_1_0_0 384 rfl rfl).symm]
  refine Finset.sum_congr rfl fun k _ => ?_
  have hk := ValueIdx.contrEquiv1_symm_val dot_S128x256x384_S128x256x384_S128x256x256_2_2_1_1_0_0 384 rfl rfl k
  have el : dot_S128x256x384_S128x256x384_S128x256x256_2_2_1_1_0_0.lhsIdx (ix3 b i j) ((ValueIdx.contrEquiv1 dot_S128x256x384_S128x256x384_S128x256x256_2_2_1_1_0_0 384 rfl rfl).symm k) = ix3 b i k := funext fun a => Fin.ext (by
    match a with
    | ⟨0, _⟩ => exact scores_lhs_0 _ _
    | ⟨1, _⟩ => exact scores_lhs_1 _ _
    | ⟨2, _⟩ => exact (scores_lhs_2 _ _).trans hk)
  have er : dot_S128x256x384_S128x256x384_S128x256x256_2_2_1_1_0_0.rhsIdx (ix3 b i j) ((ValueIdx.contrEquiv1 dot_S128x256x384_S128x256x384_S128x256x256_2_2_1_1_0_0 384 rfl rfl).symm k) = ix3 b j k := funext fun a => Fin.ext (by
    match a with
    | ⟨0, _⟩ => exact scores_rhs_0 _ _
    | ⟨1, _⟩ => exact scores_rhs_1 _ _
    | ⟨2, _⟩ => exact (scores_rhs_2 _ _).trans hk)
  rw [el, er]

/-! ### The attended features' product: the same for its dimension numbers -/

theorem attended_lhs_0 (i : S128x256x384.Idx) (q : dot_S128x256x256_S128x256x384_S128x256x384_2_1_1_2_0_0.contr.Idx) :
    (dot_S128x256x256_S128x256x384_S128x256x384_2_1_1_2_0_0.lhsIdx i q 0).val = (i 0).val := by
  unfold DotDims.lhsIdx
  rw [dif_pos (show (0 : Fin S128x256x256.rank) ∈ dot_S128x256x256_S128x256x384_S128x256x384_2_1_1_2_0_0.lhsBatch by decide)]
  rfl
theorem attended_lhs_1 (i : S128x256x384.Idx) (q : dot_S128x256x256_S128x256x384_S128x256x384_2_1_1_2_0_0.contr.Idx) :
    (dot_S128x256x256_S128x256x384_S128x256x384_2_1_1_2_0_0.lhsIdx i q 1).val = (i 1).val := by
  unfold DotDims.lhsIdx
  rw [dif_neg (show ¬(1 : Fin S128x256x256.rank) ∈ dot_S128x256x256_S128x256x384_S128x256x384_2_1_1_2_0_0.lhsBatch by decide), dif_pos (show (1 : Fin S128x256x256.rank) ∈ dot_S128x256x256_S128x256x384_S128x256x384_2_1_1_2_0_0.lhsNonContracting by decide)]
  rfl
theorem attended_lhs_2 (i : S128x256x384.Idx) (q : dot_S128x256x256_S128x256x384_S128x256x384_2_1_1_2_0_0.contr.Idx) :
    (dot_S128x256x256_S128x256x384_S128x256x384_2_1_1_2_0_0.lhsIdx i q 2).val = (q ⟨0, by decide⟩).val :=
  dot_S128x256x256_S128x256x384_S128x256x384_2_1_1_2_0_0.lhsIdx_val_of_single rfl i q
theorem attended_rhs_0 (i : S128x256x384.Idx) (q : dot_S128x256x256_S128x256x384_S128x256x384_2_1_1_2_0_0.contr.Idx) :
    (dot_S128x256x256_S128x256x384_S128x256x384_2_1_1_2_0_0.rhsIdx i q 0).val = (i 0).val := by
  unfold DotDims.rhsIdx
  rw [dif_pos (show (0 : Fin S128x256x384.rank) ∈ dot_S128x256x256_S128x256x384_S128x256x384_2_1_1_2_0_0.rhsBatch by decide)]
  rfl
theorem attended_rhs_1 (i : S128x256x384.Idx) (q : dot_S128x256x256_S128x256x384_S128x256x384_2_1_1_2_0_0.contr.Idx) :
    (dot_S128x256x256_S128x256x384_S128x256x384_2_1_1_2_0_0.rhsIdx i q 1).val = (q ⟨0, by decide⟩).val :=
  dot_S128x256x256_S128x256x384_S128x256x384_2_1_1_2_0_0.rhsIdx_val_of_single rfl i q
theorem attended_rhs_2 (i : S128x256x384.Idx) (q : dot_S128x256x256_S128x256x384_S128x256x384_2_1_1_2_0_0.contr.Idx) :
    (dot_S128x256x256_S128x256x384_S128x256x384_2_1_1_2_0_0.rhsIdx i q 2).val = (i 2).val := by
  unfold DotDims.rhsIdx
  rw [dif_neg (show ¬(2 : Fin S128x256x384.rank) ∈ dot_S128x256x256_S128x256x384_S128x256x384_2_1_1_2_0_0.rhsBatch by decide), dif_pos (show (2 : Fin S128x256x384.rank) ∈ dot_S128x256x256_S128x256x384_S128x256x384_2_1_1_2_0_0.rhsNonContracting by decide)]
  rfl

/-- The entry `(b, i, d)` of the attended features is the sum over the 256 tokens `k` of the other sequence of token
    `i`'s weight on `k` times feature `d` of `k`, all of batch element `b`: the batch axis is carried, the weights'
    last axis is contracted against the features' token axis, and the feature axis is free. -/
theorem attended_apply (W : Vec Ideal S128x256x256 .f32) (Y : Vec Ideal S128x256x384 .f32) (b : Fin 128) (i : Fin 256) (d : Fin 384) :
    attended (F := Ideal) W Y (ix3 b i d) = attend (fun k => W (ix3 b i k)) (fun k d => Y (ix3 b k d)) d := by
  unfold attended attend
  simp only [Host.dotGeneral]
  rw [Ideal.dotGeneral_apply, ← Equiv.sum_comp (ValueIdx.contrEquiv1 dot_S128x256x256_S128x256x384_S128x256x384_2_1_1_2_0_0 256 rfl rfl).symm]
  refine Finset.sum_congr rfl fun k _ => ?_
  have hk := ValueIdx.contrEquiv1_symm_val dot_S128x256x256_S128x256x384_S128x256x384_2_1_1_2_0_0 256 rfl rfl k
  have el : dot_S128x256x256_S128x256x384_S128x256x384_2_1_1_2_0_0.lhsIdx (ix3 b i d) ((ValueIdx.contrEquiv1 dot_S128x256x256_S128x256x384_S128x256x384_2_1_1_2_0_0 256 rfl rfl).symm k) = ix3 b i k := funext fun a => Fin.ext (by
    match a with
    | ⟨0, _⟩ => exact attended_lhs_0 _ _
    | ⟨1, _⟩ => exact attended_lhs_1 _ _
    | ⟨2, _⟩ => exact (attended_lhs_2 _ _).trans hk)
  have er : dot_S128x256x256_S128x256x384_S128x256x384_2_1_1_2_0_0.rhsIdx (ix3 b i d) ((ValueIdx.contrEquiv1 dot_S128x256x256_S128x256x384_S128x256x384_2_1_1_2_0_0 256 rfl rfl).symm k) = ix3 b k d := funext fun a => Fin.ext (by
    match a with
    | ⟨0, _⟩ => exact attended_rhs_0 _ _
    | ⟨1, _⟩ => exact (attended_rhs_1 _ _).trans hk
    | ⟨2, _⟩ => exact attended_rhs_2 _ _)
  rw [el, er]

end Cert.ReferenceIdeal.Stretch

end
-- ==== Proof.HSoftmax.lean ====
/-
  The reference's softmax along the last axis, and its exchange of the token axes, read at an entry.
-/
import proofs.«171500_j69200513073212_1_alg».proof.Proof.HOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stretch

open Cert.ReferenceIdeal Cert.ReferenceIdeal.Gen Idealize.ShloMosaic Idealize.ShloMosaic.ValueIdx Cert.CrossAttn
open scoped BigOperators

/-- The row index with the last coordinate put back is the full index. -/
private theorem lift_row (h : S128x256x256.Reduces [2] S128x256) (b : Fin 128) (i : Fin 256)
    (k : Fin (S128x256x256.size 2)) : h.lift (ix2 b i) k = ix3 b i (⟨k.val, k.isLt⟩ : Fin 256) := by
  funext a
  apply Fin.ext
  match a with
  | ⟨0, _⟩ => rfl
  | ⟨1, _⟩ => rfl
  | ⟨2, _⟩ => rfl

/-- A per-row value spread along the last axis, read at an entry, is the row's value. -/
private theorem spread_apply (v : Vec Ideal S128x256 .f32) (b : Fin 128) (i j : Fin 256) :
    spread (F := Ideal) v (ix3 b i j) = v (ix2 b i) := by
  unfold spread
  refine (broadcastInDim_apply _ bcast_S128x256x1_S128x256x256_0_1_2 _ (ix3 b i j) (ix3 b i (0 : Fin 1))
    (fun a => match a with
      | ⟨0, _⟩ => by show b.val = if (128 : Nat) = 1 then 0 else b.val; rw [if_neg (by decide)]
      | ⟨1, _⟩ => by show i.val = if (256 : Nat) = 1 then 0 else i.val; rw [if_neg (by decide)]
      | ⟨2, _⟩ => by show 0 = if (1 : Nat) = 1 then 0 else j.val; rw [if_pos rfl])).trans ?_
  exact broadcastInDim_apply _ bcast_S128x256_S128x256x1_0_1 v (ix3 b i (0 : Fin 1)) (ix2 b i)
    (fun a => match a with
      | ⟨0, _⟩ => by show b.val = if (128 : Nat) = 1 then 0 else b.val; rw [if_neg (by decide)]
      | ⟨1, _⟩ => by show i.val = if (256 : Nat) = 1 then 0 else i.val; rw [if_neg (by decide)])

/-- A row's maximum as the reference takes it is the specification's. -/
private theorem rowMaxes_apply (X : Vec Ideal S128x256x256 .f32) (b : Fin 128) (i : Fin 256) :
    rowMaxes (F := Ideal) X (ix2 b i) = rowMax (fun k => X (ix3 b i k)) := by
  have h : S128x256x256.Reduces [2] S128x256 := by decide
  unfold rowMaxes rowMax
  rw [maximumf_apply, broadcastInDim_apply _ bcast_S_S128x256 _ (ix2 b i) ix0 (fun a => a.elim0), constant_apply]
  refine congrArg (max negInf) ?_
  have hf : (X ∘ h.lift (ix2 b i)) = fun k : Fin 256 => X (ix3 b i k) :=
    funext fun k => congrArg X (lift_row h b i k)
  have e := Host.reduce_eq_fold_single (FloatOps.maximumf (F := Ideal) (φ := .f32)) X
    (constant (F := Ideal) S_ .f32 0xFF800000#32) reducesTo_S128x256x256_S128x256_d2 h h_S_ (ix2 b i)
  rw [hf] at e
  exact e

/-- The reference's sum along the last axis from the zero constant, at a row, is the row's sum. -/
private theorem rowSum_apply (Y : Vec Ideal S128x256x256 .f32) (b : Fin 128) (i : Fin 256) :
    Host.reduceAdd (F := Ideal) Y (constant S_ .f32 0x00000000#32) reducesTo_S128x256x256_S128x256_d2 h_S_ (ix2 b i)
      = ∑ k : Fin 256, Y (ix3 b i k) := by
  have h : S128x256x256.Reduces [2] S128x256 := by decide
  simp only [Host.reduceAdd, Ideal.hostReduceAdd_def]
  rw [Ideal.hostReduceAdd_single reducesTo_S128x256x256_S128x256_d2 h]
  show Ideal.ofBits .f32 0x00000000#32 + _ = _
  rw [Ideal.ofBits_zero_f32, zero_add]
  exact Finset.sum_congr rfl fun k _ => congrArg Y (lift_row h b i k)

/-- The exponential of a score less its row's maximum, at an entry. -/
private theorem shifted_apply (X : Vec Ideal S128x256x256 .f32) (b : Fin 128) (i k : Fin 256) :
    shifted (F := Ideal) X (ix3 b i k) = Ideal.exp (X (ix3 b i k) - rowMax (fun k => X (ix3 b i k))) := by
  show Ideal.exp (X (ix3 b i k) - spread (F := Ideal) (rowMaxes (F := Ideal) X) (ix3 b i k)) = _
  rw [spread_apply, rowMaxes_apply]

theorem softmaxLast_apply (X : Vec Ideal S128x256x256 .f32) (b : Fin 128) (i j : Fin 256) :
    softmaxLast (F := Ideal) X (ix3 b i j) = softRow (fun k => X (ix3 b i k)) j := by
  show Ideal.div (shifted (F := Ideal) X (ix3 b i j))
    (spread (F := Ideal) (Host.reduceAdd (F := Ideal) (shifted (F := Ideal) X) (constant S_ .f32 0x00000000#32)
      reducesTo_S128x256x256_S128x256_d2 h_S_) (ix3 b i j)) = _
  rw [spread_apply, rowSum_apply, shifted_apply]
  unfold softRow
  exact congrArg (Ideal.div _) (Finset.sum_congr rfl fun k _ => shifted_apply X b i k)

theorem swapTokens_apply (X : Vec Ideal S128x256x256 .f32) (b : Fin 128) (i j : Fin 256) :
    swapTokens (F := Ideal) X (ix3 b i j) = X (ix3 b j i) := by
  unfold swapTokens
  exact transpose_apply [0, 2, 1] X transposes_S128x256x256_S128x256x256_0_2_1 (ix3 b i j) (ix3 b j i)
    (fun a => match a with
      | ⟨0, _⟩ => rfl
      | ⟨1, _⟩ => rfl
      | ⟨2, _⟩ => rfl)

end Cert.ReferenceIdeal.Stretch

end
-- ==== Proof.HUnit.lean ====
/-
  The reference's joined feature array and its rows scaled to unit length, read at an entry.
-/
import proofs.«171500_j69200513073212_1_alg».proof.Proof.HOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stretch

open Cert.ReferenceIdeal Cert.ReferenceIdeal.Gen Idealize.ShloMosaic Idealize.ShloMosaic.ValueIdx Cert.CrossAttn
open scoped BigOperators

theorem sideBySide_apply (X Z : Vec Ideal S128x256x384 .f32) (b : Fin 128) (i : Fin 256) (c : Fin 768) :
    sideBySide (F := Ideal) X Z (ix3 b i c) = cat (fun d => X (ix3 b i d)) (fun d => Z (ix3 b i d)) c := by
  unfold sideBySide cat
  by_cases h : c.val < 384
  · -- a feature below 384 lies in the first array, at the same three coordinates
    rw [dif_pos h]
    exact concatenate_pair_apply_left 2 X Z concatenates_S128x256x384_S128x256x384_S128x256x768_d2 (ix3 b i c) rfl
      (ix3 b i ⟨c.val, h⟩) (fun a => match a with | ⟨0, _⟩ => rfl | ⟨1, _⟩ => rfl | ⟨2, _⟩ => rfl)
  · -- a feature from 384 on lies in the second array, its feature coordinate 384 less
    rw [dif_neg h]
    exact concatenate_pair_apply_right 2 X Z concatenates_S128x256x384_S128x256x384_S128x256x768_d2 (ix3 b i c) rfl rfl
      (ix3 b i ⟨c.val - 384, by have := c.isLt; omega⟩)
      (fun a ha => match a, ha with | ⟨0, _⟩, _ => rfl | ⟨1, _⟩, _ => rfl | ⟨2, _⟩, ha => absurd rfl ha)
      (by show c.val - 384 + 384 = c.val; omega)

theorem unitRows_apply (C : Vec Ideal S128x256x768 .f32) (b : Fin 128) (i : Fin 256) (c : Fin 768) :
    unitRows (F := Ideal) C (ix3 b i c) = unit (fun k => C (ix3 b i k)) c := by
  -- a per-token value spread along the 768 features, read at (b, i, c), is that value at (b, i, 0)
  have hspread : ∀ y : Vec Ideal S128x256x1 .f32,
      broadcastInDim S128x256x768 ![0, 1, 2] bcast_S128x256x1_S128x256x768_0_1_2 y (ix3 b i c)
        = y (ix3 b i (⟨0, Nat.one_pos⟩ : Fin 1)) := fun y =>
    broadcastInDim_apply _ bcast_S128x256x1_S128x256x768_0_1_2 y (ix3 b i c) (ix3 b i (⟨0, Nat.one_pos⟩ : Fin 1))
      (fun a => match a with
        | ⟨0, _⟩ => by show b.val = if (128 : Nat) = 1 then 0 else b.val; rw [if_neg (by decide)]
        | ⟨1, _⟩ => by show i.val = if (256 : Nat) = 1 then 0 else i.val; rw [if_neg (by decide)]
        | ⟨2, _⟩ => by show 0 = if (1 : Nat) = 1 then 0 else c.val; rw [if_pos rfl])
  -- a [128,256] array given a trailing unit axis, read at (b, i, 0), is the array at (b, i)
  have hunitAxis : ∀ y : Vec Ideal S128x256 .f32,
      broadcastInDim S128x256x1 ![0, 1] bcast_S128x256_S128x256x1_0_1 y (ix3 b i (⟨0, Nat.one_pos⟩ : Fin 1))
        = y (ix2 b i) := fun y =>
    broadcastInDim_apply _ bcast_S128x256_S128x256x1_0_1 y (ix3 b i (⟨0, Nat.one_pos⟩ : Fin 1)) (ix2 b i)
      (fun a => match a with
        | ⟨0, _⟩ => by show b.val = if (128 : Nat) = 1 then 0 else b.val; rw [if_neg (by decide)]
        | ⟨1, _⟩ => by show i.val = if (256 : Nat) = 1 then 0 else i.val; rw [if_neg (by decide)])
  -- a scalar spread over [128,256,1] is that scalar everywhere
  have hscalar : ∀ y : Vec Ideal S_ .f32,
      broadcastInDim S128x256x1 ![] bcast_S_S128x256x1 y (ix3 b i (⟨0, Nat.one_pos⟩ : Fin 1)) = y ix0 := fun y =>
    broadcastInDim_apply _ bcast_S_S128x256x1 y (ix3 b i (⟨0, Nat.one_pos⟩ : Fin 1)) ix0 (fun a => a.elim0)
  -- the sum over the features of a [128,256,768] array, from the zero constant, at (b, i)
  have hsum : ∀ y : Vec Ideal S128x256x768 .f32,
      Host.reduceAdd y (constant (F := Ideal) S_ .f32 0x00000000#32) reducesTo_S128x256x768_S128x256_d2 h_S_ (ix2 b i)
        = ∑ k : Fin 768, y (ix3 b i k) := fun y => by
    simp only [Host.reduceAdd, Ideal.hostReduceAdd_def]
    rw [Ideal.hostReduceAdd_single reducesTo_S128x256x768_S128x256_d2 (by decide)]
    rw [constant_apply, Ideal.ofBits_zero_f32, zero_add]
    refine Finset.sum_congr rfl fun k _ => ?_
    exact congrArg y (funext fun a => Fin.ext (by match a with | ⟨0, _⟩ => rfl | ⟨1, _⟩ => rfl | ⟨2, _⟩ => rfl))
  unfold unitRows unit
  show Ideal.div (C (ix3 b i c)) (broadcastInDim (s := S128x256x1) S128x256x768 ![0, 1, 2] bcast_S128x256x1_S128x256x768_0_1_2 _ (ix3 b i c)) = _
  rw [hspread]
  show Ideal.div (C (ix3 b i c))
      (max (Ideal.sqrt (broadcastInDim (s := S128x256) S128x256x1 ![0, 1] bcast_S128x256_S128x256x1_0_1 _ (ix3 b i (⟨0, Nat.one_pos⟩ : Fin 1))))
        (broadcastInDim (s := S_) S128x256x1 ![] bcast_S_S128x256x1 _ (ix3 b i (⟨0, Nat.one_pos⟩ : Fin 1)))) = _
  rw [hunitAxis, hscalar, hsum]
  rfl

end Cert.ReferenceIdeal.Stretch

end
-- ==== Proof.HPool.lean ====
/-
  The reference's masked mean over the tokens and its final scaling to unit length, read at an entry.

  Every array operation is read at an index from its operand at an index. A value spread along a new axis, or along
  an axis of extent one, reads its operand at the coordinates it keeps (and at 0 on the axis of extent one); a scalar
  constant spread over an array is that constant everywhere; a sum over one axis, started from the zero constant, is
  the sum over that axis's coordinate of the operand with the coordinate put back in its place; the pointwise
  operations are the extended reals' own. With these the masked mean at batch element `b` and feature `c` is the sum
  over the tokens of the feature times the mask, over the count of kept tokens floored; and the scaled vector at
  `(b, c)` is the entry over the root of the sum of the squares of the batch element's entries, floored.
-/
import proofs.«171500_j69200513073212_1_alg».proof.Proof.HOps
import proofs.«171500_j69200513073212_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stretch

open Cert.ReferenceIdeal Cert.ReferenceIdeal.Gen Idealize.ShloMosaic Idealize.ShloMosaic.ValueIdx Cert.CrossAttn
open scoped BigOperators

/-! ## The pointwise host operations at an index -/

/-- The host's quotient at an index is the quotient of the entries. -/
private theorem hostDivf_at {s : Shape} (x y : FVec Ideal s .f32) (i : s.Idx) :
    Host.divf x y i = Ideal.div (x i) (y i) := rfl

/-- The host's square root at an index is the root of the entry. -/
private theorem hostSqrt_at {s : Shape} (x : FVec Ideal s .f32) (i : s.Idx) :
    Host.sqrt x i = Ideal.sqrt (x i) := rfl

/-! ## The spreads at an index -/

/-- A scalar constant spread over a column of 128 entries is that constant at each. -/
private theorem floor_apply (w : BitVec 32) (j : S128x1.Idx) :
    broadcastInDim S128x1 ![] bcast_S_S128x1 (constant (F := Ideal) S_ .f32 w) j = Ideal.ofBits .f32 w :=
  (broadcastInDim_apply _ bcast_S_S128x1 (constant (F := Ideal) S_ .f32 w) j (fun a => a.elim0)
    (fun a => a.elim0)).trans rfl

/-- A column spread along the 768 features reads the column's entry of the same batch element. -/
private theorem spreadCol_apply (y : Vec Ideal S128x1 .f32) (b : Fin 128) (c : Fin 768) :
    broadcastInDim S128x768 ![0, 1] bcast_S128x1_S128x768_0_1 y (ix2 b c) = y (ix2 b (⟨0, Nat.one_pos⟩ : Fin 1)) :=
  broadcastInDim_apply _ bcast_S128x1_S128x768_0_1 y (ix2 b c) (ix2 b (⟨0, Nat.one_pos⟩ : Fin 1)) (fun a => match a with
    | ⟨0, _⟩ => by show b.val = if (128 : Nat) = 1 then 0 else b.val; rw [if_neg (by decide)]
    | ⟨1, _⟩ => by show 0 = if (1 : Nat) = 1 then 0 else c.val; rw [if_pos rfl])

/-- A vector of 128 entries made a column reads the vector's entry of the same batch element. -/
private theorem col_apply (y : Vec Ideal S128 .f32) (b : Fin 128) (z : Fin 1) :
    broadcastInDim S128x1 ![0] bcast_S128_S128x1_0 y (ix2 b z) = y (ix1 b) :=
  broadcastInDim_apply _ bcast_S128_S128x1_0 y (ix2 b z) (ix1 b) (fun a => match a with
    | ⟨0, _⟩ => by show b.val = if (128 : Nat) = 1 then 0 else b.val; rw [if_neg (by decide)])

/-- The mask given a last axis of extent one reads the mask at the same batch element and token. -/
private theorem maskCol_apply (mk : Vec Ideal S128x256 .f32) (b : Fin 128) (i : Fin 256) (z : Fin 1) :
    broadcastInDim S128x256x1 ![0, 1] bcast_S128x256_S128x256x1_0_1 mk (ix3 b i z) = mk (ix2 b i) :=
  broadcastInDim_apply _ bcast_S128x256_S128x256x1_0_1 mk (ix3 b i z) (ix2 b i) (fun a => match a with
    | ⟨0, _⟩ => by show b.val = if (128 : Nat) = 1 then 0 else b.val; rw [if_neg (by decide)]
    | ⟨1, _⟩ => by show i.val = if (256 : Nat) = 1 then 0 else i.val; rw [if_neg (by decide)])

/-- An array with a last axis of extent one, spread along the 768 features, reads its entry of the same batch element
    and token. -/
private theorem spreadFeat_apply (y : Vec Ideal S128x256x1 .f32) (b : Fin 128) (i : Fin 256) (k : Fin 768) :
    broadcastInDim S128x256x768 ![0, 1, 2] bcast_S128x256x1_S128x256x768_0_1_2 y (ix3 b i k)
      = y (ix3 b i (⟨0, Nat.one_pos⟩ : Fin 1)) :=
  broadcastInDim_apply _ bcast_S128x256x1_S128x256x768_0_1_2 y (ix3 b i k) (ix3 b i (⟨0, Nat.one_pos⟩ : Fin 1))
    (fun a => match a with
    | ⟨0, _⟩ => by show b.val = if (128 : Nat) = 1 then 0 else b.val; rw [if_neg (by decide)]
    | ⟨1, _⟩ => by show i.val = if (256 : Nat) = 1 then 0 else i.val; rw [if_neg (by decide)]
    | ⟨2, _⟩ => by show 0 = if (1 : Nat) = 1 then 0 else k.val; rw [if_pos rfl])

/-! ## The sums over one axis, from the zero constant -/

/-- The sum over the tokens of a [128, 256, 768] array at batch element `b` and feature `c`. -/
private theorem sumTokens_apply (x : Vec Ideal S128x256x768 .f32) (b : Fin 128) (c : Fin 768) :
    Host.reduceAdd (F := Ideal) x (constant S_ .f32 0x00000000#32) reducesTo_S128x256x768_S128x768_d1 h_S_ (ix2 b c)
      = ∑ i : Fin 256, x (ix3 b i c) := by
  show Ideal.hostReduceAdd reducesTo_S128x256x768_S128x768_d1 x (Ideal.ofBits .f32 0x00000000#32) (ix2 b c) = _
  rw [Ideal.hostReduceAdd_single reducesTo_S128x256x768_S128x768_d1 (by decide), Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- The sum over the tokens of a [128, 256, 1] array at batch element `b`. -/
private theorem sumCount_apply (y : Vec Ideal S128x256x1 .f32) (b : Fin 128) (z : Fin 1) :
    Host.reduceAdd (F := Ideal) y (constant S_ .f32 0x00000000#32) reducesTo_S128x256x1_S128x1_d1 h_S_ (ix2 b z)
      = ∑ i : Fin 256, y (ix3 b i z) := by
  show Ideal.hostReduceAdd reducesTo_S128x256x1_S128x1_d1 y (Ideal.ofBits .f32 0x00000000#32) (ix2 b z) = _
  rw [Ideal.hostReduceAdd_single reducesTo_S128x256x1_S128x1_d1 (by decide), Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The sum over the features of a [128, 768] array at batch element `b`. -/
private theorem sumFeat_apply (x : Vec Ideal S128x768 .f32) (b : Fin 128) :
    Host.reduceAdd (F := Ideal) x (constant S_ .f32 0x00000000#32) reducesTo_S128x768_S128_d1 h_S_ (ix1 b)
      = ∑ k : Fin 768, x (ix2 b k) := by
  show Ideal.hostReduceAdd reducesTo_S128x768_S128_d1 x (Ideal.ofBits .f32 0x00000000#32) (ix1 b) = _
  rw [Ideal.hostReduceAdd_single reducesTo_S128x768_S128_d1 (by decide), Ideal.ofBits_zero_f32, zero_add]
  refine Finset.sum_congr rfl fun k _ => ?_
  exact congrArg x (funext fun a => Fin.ext (by match a with | ⟨0, _⟩ => rfl | ⟨1, _⟩ => rfl))

/-! ## The two stretches at an entry -/

theorem maskedMean_apply (N : Vec Ideal S128x256x768 .f32) (mk : Vec Ideal S128x256 .f32) (b : Fin 128) (c : Fin 768) :
    maskedMean (F := Ideal) N mk (ix2 b c) = pool (fun i k => N (ix3 b i k)) (fun i => mk (ix2 b i)) c := by
  unfold maskedMean Cert.CrossAttn.pool
  rw [hostDivf_at, spreadCol_apply, maximumf_apply, floor_apply, sumTokens_apply, sumCount_apply]
  refine congrArg₂ Ideal.div (Finset.sum_congr rfl fun i _ => ?_)
    (congrArg (max · cntFloor) (Finset.sum_congr rfl fun i _ => ?_))
  · rw [mulf_apply, spreadFeat_apply, maskCol_apply]
  · exact maskCol_apply mk b i _

theorem unitVecs_apply (R : Vec Ideal S128x768 .f32) (b : Fin 128) (c : Fin 768) :
    unitVecs (F := Ideal) R (ix2 b c) = unit (fun k => R (ix2 b k)) c := by
  unfold unitVecs Cert.CrossAttn.unit
  rw [hostDivf_at, spreadCol_apply, maximumf_apply, floor_apply, hostSqrt_at, col_apply, sumFeat_apply]
  rfl

end Cert.ReferenceIdeal.Stretch

end
-- ==== Proof.HTotal.lean ====
/-
  The reference's two results at an entry, and as whole arrays: the stretches of HOps.lean, each read at an entry by its
  own lemma, compose to batch element b's pooled vector (Spec.lean's `pooled`), so each result IS the whole-array form
  of the specification (Whole.lean).
-/
import proofs.«171500_j69200513073212_1_alg».proof.Proof.HOps
import proofs.«171500_j69200513073212_1_alg».proof.Proof.Whole
import proofs.«171500_j69200513073212_1_alg».proof.Proof.HScores
import proofs.«171500_j69200513073212_1_alg».proof.Proof.HSoftmax
import proofs.«171500_j69200513073212_1_alg».proof.Proof.HUnit
import proofs.«171500_j69200513073212_1_alg».proof.Proof.HPool

noncomputable section

namespace Cert.ReferenceIdeal.Stretch

open Cert.ReferenceIdeal Cert.ReferenceIdeal.Gen Idealize.ShloMosaic Idealize.ShloMosaic.ValueIdx Cert.CrossAttn

/-- The first result at (b, c): batch element b's first sequence pooled, feature c. -/
theorem first_apply (Q A : Vec Ideal S128x256x384 .f32) (M : Vec Ideal S128x256 .i32) (b : Fin 128) (c : Fin 768) :
    first (F := Ideal) Q A M (ix2 b c)
      = pooled (score (tokens Q b) (tokens A b)) (tokens Q b) (tokens A b)
          (maskOf (sitofp (F := Ideal) .f32 M) b) c := by
  unfold first
  simp only [unitVecs_apply, maskedMean_apply, unitRows_apply, sideBySide_apply, attended_apply, softmaxLast_apply,
    scores_apply]
  rfl

/-- The second result at (b, c): batch element b's second sequence pooled, feature c. -/
theorem second_apply (Q A : Vec Ideal S128x256x384 .f32) (M : Vec Ideal S128x256 .i32) (b : Fin 128) (c : Fin 768) :
    second (F := Ideal) Q A M (ix2 b c)
      = pooled (fun j i => score (tokens Q b) (tokens A b) i j) (tokens A b) (tokens Q b)
          (maskOf (sitofp (F := Ideal) .f32 M) b) c := by
  unfold second
  simp only [unitVecs_apply, maskedMean_apply, unitRows_apply, sideBySide_apply, attended_apply, softmaxLast_apply,
    swapTokens_apply, scores_apply]
  rfl

/-- The first result is the specification's first whole array. -/
theorem first_eq (Q A : Vec Ideal S128x256x384 .f32) (M : Vec Ideal S128x256 .i32) :
    first (F := Ideal) Q A M = firstWhole Q A (sitofp (F := Ideal) .f32 M) := by
  funext y
  obtain ⟨b, c, rfl⟩ : ∃ (b : Fin 128) (c : Fin 768), y = ix2 b c := ⟨y 0, y 1, eq_ix2 y⟩
  exact first_apply Q A M b c

/-- The second result is the specification's second whole array. -/
theorem second_eq (Q A : Vec Ideal S128x256x384 .f32) (M : Vec Ideal S128x256 .i32) :
    second (F := Ideal) Q A M = secondWhole Q A (sitofp (F := Ideal) .f32 M) := by
  funext y
  obtain ⟨b, c, rfl⟩ : ∃ (b : Fin 128) (c : Fin 768), y = ix2 b c := ⟨y 0, y 1, eq_ix2 y⟩
  exact second_apply Q A M b c

end Cert.ReferenceIdeal.Stretch

end
-- ==== Proof.RefRun.lean ====
/-
  The reference's run, read back against the stretches of HOps.lean. The 100 host operations are taken in three
  runs of consecutive operations, cut in front of each of the two concatenations so that a concatenation's operands
  are contents of the valuation it starts from: the first 32 operations (the scores, both softmaxes, both attended
  products), the next 11 (the first sequence's features joined and its rows scaled to unit length), and the last 57
  (the second sequence's the same, then both masked means and final scalings). Each run's results are the stretches
  applied to the contents it starts from, the buffers it does not write are kept, and the three compose to the two
  results as `first` and `second` of the argument arrays as launched.
-/
import proofs.«171500_j69200513073212_1_alg».proof.Proof.RefOps
import proofs.«171500_j69200513073212_1_alg».proof.Proof.HOps
import Idealize.ShloMosaic.Lib.StableHlo.Run
import Idealize.ShloMosaic.Lib.Pipeline.Frame

noncomputable section

namespace Cert.ReferenceIdeal.Stretch

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-- The first 32 operations: through the two attended products. -/
abbrev opsA : List (HloOp τ sig (Elt F)) := (ops (F := F)).take 32
/-- The next 11: the first sequence's joined features, scaled row by row. -/
abbrev opsB : List (HloOp τ sig (Elt F)) := ((ops (F := F)).drop 32).take 11
/-- The last 57: the second sequence's joined features scaled, then both poolings. -/
abbrev opsC : List (HloOp τ sig (Elt F)) := (ops (F := F)).drop 43

theorem ops_cut : (ops (F := F)) = opsA ++ (opsB ++ opsC) := rfl

/-! ## The first 32 operations -/

set_option maxRecDepth 8192 in
set_option maxHeartbeats 4000000 in
/-- They leave the first sequence's attended features: the softmax of the scores times the second's array. -/
theorem afterA_v24 (V : Valuation τ sig (Elt F)) :
    after (opsA (F := F)) V (Proc.devRef .tc main_v24)
      = attended (softmaxLast (scores (V (Proc.devRef .tc main_arg0)) (V (Proc.devRef .tc main_arg1)))) (V (Proc.devRef .tc main_arg1)) := by
  simp only [opsA, ops, List.take]
  after_results_simp
  rfl

set_option maxRecDepth 8192 in
set_option maxHeartbeats 4000000 in
/-- And the second sequence's: the softmax of the transposed scores times the first's array. -/
theorem afterA_v25 (V : Valuation τ sig (Elt F)) :
    after (opsA (F := F)) V (Proc.devRef .tc main_v25)
      = attended (softmaxLast (swapTokens (scores (V (Proc.devRef .tc main_arg0)) (V (Proc.devRef .tc main_arg1))))) (V (Proc.devRef .tc main_arg0)) := by
  simp only [opsA, ops, List.take]
  after_results_simp
  rfl

set_option maxRecDepth 8192 in
theorem afterA_arg0 (V : Valuation τ sig (Elt F)) :
    after (opsA (F := F)) V (Proc.devRef .tc main_arg0) = V (Proc.devRef .tc main_arg0) := by
  simp only [opsA, ops, List.take]
  after_results_simp

set_option maxRecDepth 8192 in
theorem afterA_arg1 (V : Valuation τ sig (Elt F)) :
    after (opsA (F := F)) V (Proc.devRef .tc main_arg1) = V (Proc.devRef .tc main_arg1) := by
  simp only [opsA, ops, List.take]
  after_results_simp

set_option maxRecDepth 8192 in
theorem afterA_arg2 (V : Valuation τ sig (Elt F)) :
    after (opsA (F := F)) V (Proc.devRef .tc main_arg2) = V (Proc.devRef .tc main_arg2) := by
  simp only [opsA, ops, List.take]
  after_results_simp

set_option maxRecDepth 8192 in
theorem afterA_arg3 (V : Valuation τ sig (Elt F)) :
    after (opsA (F := F)) V (Proc.devRef .tc main_arg3) = V (Proc.devRef .tc main_arg3) := by
  simp only [opsA, ops, List.take]
  after_results_simp

/-! ## The next 11 -/

set_option maxRecDepth 8192 in
set_option maxHeartbeats 4000000 in
/-- They leave the first sequence's own and attended features side by side, every row scaled to unit length. -/
theorem afterB_v34 (V : Valuation τ sig (Elt F)) :
    after (opsB (F := F)) V (Proc.devRef .tc main_v34) = unitRows (sideBySide (V (Proc.devRef .tc main_arg0)) (V (Proc.devRef .tc main_v24))) := by
  simp only [opsB, ops, List.drop, List.take]
  after_results_simp
  rfl

set_option maxRecDepth 8192 in
theorem afterB_arg0 (V : Valuation τ sig (Elt F)) :
    after (opsB (F := F)) V (Proc.devRef .tc main_arg0) = V (Proc.devRef .tc main_arg0) := by
  simp only [opsB, ops, List.drop, List.take]
  after_results_simp

set_option maxRecDepth 8192 in
theorem afterB_arg1 (V : Valuation τ sig (Elt F)) :
    after (opsB (F := F)) V (Proc.devRef .tc main_arg1) = V (Proc.devRef .tc main_arg1) := by
  simp only [opsB, ops, List.drop, List.take]
  after_results_simp

set_option maxRecDepth 8192 in
theorem afterB_arg2 (V : Valuation τ sig (Elt F)) :
    after (opsB (F := F)) V (Proc.devRef .tc main_arg2) = V (Proc.devRef .tc main_arg2) := by
  simp only [opsB, ops, List.drop, List.take]
  after_results_simp

set_option maxRecDepth 8192 in
theorem afterB_arg3 (V : Valuation τ sig (Elt F)) :
    after (opsB (F := F)) V (Proc.devRef .tc main_arg3) = V (Proc.devRef .tc main_arg3) := by
  simp only [opsB, ops, List.drop, List.take]
  after_results_simp

set_option maxRecDepth 8192 in
theorem afterB_v25 (V : Valuation τ sig (Elt F)) :
    after (opsB (F := F)) V (Proc.devRef .tc main_v25) = V (Proc.devRef .tc main_v25) := by
  simp only [opsB, ops, List.drop, List.take]
  after_results_simp

/-! ## The last 57 -/

set_option maxRecDepth 8192 in
set_option maxHeartbeats 4000000 in
/-- The first result: the masked mean of the scaled rows they start from, scaled to unit length. -/
theorem afterC_v61 (V : Valuation τ sig (Elt F)) :
    after (opsC (F := F)) V (Proc.devRef .tc main_v61)
      = unitVecs (maskedMean (V (Proc.devRef .tc main_v34)) (sitofp (F := F) .f32 (V (Proc.devRef .tc main_arg2)))) := by
  simp only [opsC, ops, List.drop]
  after_results_simp
  rfl

set_option maxRecDepth 8192 in
set_option maxHeartbeats 4000000 in
/-- The second result: the second sequence's features joined and scaled, then the same pooling under its own mask. -/
theorem afterC_v79 (V : Valuation τ sig (Elt F)) :
    after (opsC (F := F)) V (Proc.devRef .tc main_v79)
      = unitVecs (maskedMean (unitRows (sideBySide (V (Proc.devRef .tc main_arg1)) (V (Proc.devRef .tc main_v25))))
          (sitofp (F := F) .f32 (V (Proc.devRef .tc main_arg3)))) := by
  simp only [opsC, ops, List.drop]
  after_results_simp
  rfl

/-! ## The whole line -/

/-- After all 100 operations the first result buffer holds `first` of the contents the line starts from. -/
theorem after_v61 (V : Valuation τ sig (Elt F)) :
    after (ops (F := F)) V (Proc.devRef .tc main_v61)
      = first (V (Proc.devRef .tc main_arg0)) (V (Proc.devRef .tc main_arg1)) (V (Proc.devRef .tc main_arg2)) := by
  rw [ops_cut, after_append, after_append, afterC_v61, afterB_v34, afterB_arg2, afterA_v24, afterA_arg0, afterA_arg2]
  rfl

/-- And the second result buffer `second` of them. -/
theorem after_v79 (V : Valuation τ sig (Elt F)) :
    after (ops (F := F)) V (Proc.devRef .tc main_v79)
      = second (V (Proc.devRef .tc main_arg0)) (V (Proc.devRef .tc main_arg1)) (V (Proc.devRef .tc main_arg3)) := by
  rw [ops_cut, after_append, after_append, afterC_v79, afterB_arg1, afterB_v25, afterB_arg3, afterA_arg1, afterA_v25, afterA_arg3]
  rfl

set_option maxRecDepth 8192 in
set_option maxHeartbeats 40000000 in
/-- On every device, from any memory with zero counters: every weakly fair execution of the reference terminates with
    its two results at `first` and `second` of the argument arrays as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = first (m ((c.tc : Thread nD τ).loc main_arg0)) (m ((c.tc : Thread nD τ).loc main_arg1)) (m ((c.tc : Thread nD τ).loc main_arg2))
      ∧ r.2.mem ((c.tc : Thread nD τ).loc main_v79)
        = second (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (after_v61 _),
      (h c main_v79).trans (after_v79 _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Stretch

end
-- ==== Proof.lean ====
/-
  Bidirectional cross-attention of two token sequences, pooled: the kernel against its reference, over the extended reals.

  For each of 128 batch elements, two sequences of 256 tokens with 384 features score every token of one against every
  token of the other (the inner product of their features); each token takes the softmax of its row of scores as
  weights and sums the other sequence's tokens under them; its own and these attended features, side by side, are
  scaled to unit Euclidean length; the tokens a 0/1 mask keeps are averaged; the average is scaled to unit length.
  That is done for both sequences, the second with the score matrix transposed (Spec.lean, Whole.lean).

  The kernel does it for 8 batch elements per grid point, with matrix products into zero accumulators whose operands
  pass through a narrower float format on the way (the identity on the extended reals), lane reductions, shape casts
  and broadcasts; the reference for all 128 at once, with batched products, host reductions and broadcasts in
  dimensions. Operation for operation they are the same arithmetic with the same constants, so no algebraic law is
  needed and the precondition is never opened: each stretch of either program, read at an entry, is the
  specification's function of one batch element's rows (KScores … KPool for the kernel's block, HScores … HPool for
  the reference's arrays; KTotal and HTotal compose them). A grid point's block is rows 8t … 8t+7 of every array and
  the 16 blocks cover the 128 rows, so the kernel's result arrays are the specification's whole arrays (KBlocks,
  KFinal); the reference's 100 host operations, run in three stretches cut before each concatenation, leave the same
  whole arrays (RefRun, HTotal).

  The three frames: the kernel's two are the generated frame runs; the reference's is its run with the results
  dropped. The idealization rewrote nothing, so its conjunct is trivial.
-/
import proofs.«171500_j69200513073212_1_alg».proof.Defs
import proofs.«171500_j69200513073212_1_alg».proof.Proof.Gen.Kernel
import proofs.«171500_j69200513073212_1_alg».proof.Proof.Gen.Kernel.Skeleton
import proofs.«171500_j69200513073212_1_alg».proof.Proof.Gen.Kernel.Launch
import proofs.«171500_j69200513073212_1_alg».proof.Proof.Gen.Kernel.Points
import proofs.«171500_j69200513073212_1_alg».proof.Proof.Gen.Kernel.Frame
import proofs.«171500_j69200513073212_1_alg».proof.Proof.Gen.KernelIdeal
import proofs.«171500_j69200513073212_1_alg».proof.Proof.Gen.KernelIdeal.Skeleton
import proofs.«171500_j69200513073212_1_alg».proof.Proof.Gen.KernelIdeal.Launch
import proofs.«171500_j69200513073212_1_alg».proof.Proof.Gen.KernelIdeal.Points
import proofs.«171500_j69200513073212_1_alg».proof.Proof.Gen.KernelIdeal.Frame
import proofs.«171500_j69200513073212_1_alg».proof.Proof.Gen.ReferenceIdeal
import proofs.«171500_j69200513073212_1_alg».proof.Proof.Gen.Pre_finite_inputs
import proofs.«171500_j69200513073212_1_alg».proof.Proof.KFinal
import proofs.«171500_j69200513073212_1_alg».proof.Proof.HTotal
import proofs.«171500_j69200513073212_1_alg».proof.Proof.RefRun
import Idealize.ShloMosaic.Adequacy
import Idealize.ShloMosaic.Init

noncomputable section

namespace Cert.Proof

open Idealize.ShloMosaic Idealize.SL.Sem Cert.CrossAttn

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Stretch.run (F := Ideal) m ρ)

/-- Both programs, from memories agreeing on the arguments, end with each result at the specification's whole array of
    the arguments: the kernel's by its blocks, the reference's by its stretches. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Stretch.run (F := Ideal) m' ρ')
  · rw [(h c).1, Cert.ReferenceIdeal.Stretch.first_eq, (hagree c).1, (hagree c).2.1, (hagree c).2.2.1]
  · rw [(h c).2.1, Cert.ReferenceIdeal.Stretch.second_eq, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
